-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S512x256 : Shape := ⟨2, ![512, 256]⟩
abbrev S1024x256 : Shape := ⟨2, ![1024, 256]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 30
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .i1⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1, .i32⟩
  | .local _ .vmem, ⟨9, _⟩ => ⟨S512x1, .i32⟩
  | .local _ .vmem, ⟨10, _⟩ => ⟨S1x1024, .i32⟩
  | .local _ .vmem, ⟨11, _⟩ => ⟨S1x1024, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x256_S8192_d1 : S8192x256.ReducesTo [1] S8192
  h_S_ : 0 < S_.numel
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .i1⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_call2_v0 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.FrKernel.Runs.lean ====
/-
  The region of the triplet-mining kernel, the vocabulary its per-case runs and its proof data share:
  the memory as the region finds it (the squared norms and the two layouts of norms and labels are
  already written by the host lines before it), each window's block at a grid point, the two branch
  conditions of the body in closed form over the grid (first column block: the running maximum and
  minimum are reset; last column block: they are copied to the outputs), where the two output windows
  are idle, and the staging and scratch memrefs the body is called with.
-/
import proofs.«175446_j81810537055054_1_alg».proof.Proof.Gen.Kernel.Launch
import proofs.«175446_j81810537055054_1_alg».proof.Proof.Gen.Kernel.Skeleton
import proofs.«175446_j81810537055054_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines, the region, the host lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region write neither argument. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch of the body (reset of the running maximum and minimum), from the grid coordinates. -/
abbrev cond0_0 (i : grid0.Coords) : Prop := (Scalar.cmpi .ne (Scalar.extui (Scalar.cmpi .eq (BitVec.ofNat 32 (i 1).val) 0#32)) 0#32) = 1#1
/-- It is taken at the first of the eight column blocks. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch of the body (the copy to the outputs), from the grid coordinates. -/
abbrev cond0_1 (i : grid0.Coords) : Prop := k0_cond2 i = 1#1
/-- It is taken at the last of the eight column blocks. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the body is called with -/

abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The two scratch operands: the running maximum and the running minimum of a row block. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- The region's plain invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.FrKernel.RunA.lean ====
/-
  The body at the FIRST column block of a row block (the reset branch taken, the copy branch not): run on
  whole staging memrefs holding the six input blocks, it resets the two scratch operands, then stores into
  each the combination of the reset value with the block's masked row maximum, resp. minimum; the two
  output buffers are not touched. The pieces the scratch operands end with are the witness the run finds.
-/
import proofs.«175446_j81810537055054_1_alg».proof.Proof.FrKernel.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.FrKernel.RunB.lean ====
/-
  The body at a MIDDLE column block of a row block (neither branch taken): run on whole staging memrefs
  holding the six input blocks and on the two scratch operands at the running maximum and minimum the
  column blocks before left, it stores into each scratch operand its contents combined with this block's
  masked row maximum, resp. minimum; the two output buffers are not touched.
-/
import proofs.«175446_j81810537055054_1_alg».proof.Proof.FrKernel.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Fr

end
-- ==== Proof.FrKernel.RunC.lean ====
/-
  The body at the LAST column block of a row block (the reset branch not taken, the copy branch taken): as
  at a middle block the two scratch operands are combined with this block's masked row maximum and minimum,
  and then each is loaded and stored whole into its output buffer. The pieces the two scratch operands and
  the two output buffers end with are the witness the run finds.
-/
import proofs.«175446_j81810537055054_1_alg».proof.Proof.FrKernel.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    Σ' (L6 : List (View.Piece (Elt F) S512x1 .f32)) (L7 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.Kernel.Fr

end
-- ==== Proof.FrKernel.Shares.lean ====
/-
  How the full share of each array behind the kernel's windows is dealt among the windows on it: the matrix of
  points is read by two input windows (the row tile and the column tile), which hold one half each; every
  other array has one window, which holds it whole.
-/
import Idealize.ShloMosaic.Lib.Pipeline.Kit

noncomputable section

namespace Cert.Kernel.Fr

open Idealize.ShloMosaic Idealize.SL Idealize.SL.RA

/-- The share window `w` holds of its array. -/
def qs : Fin 8 → PosShare TreeShare
  | ⟨0, _⟩ => fullShare.left
  | ⟨1, _⟩ => fullShare.right
  | _ => fullShare

end Cert.Kernel.Fr

end
-- ==== Proof.FrKernel.Frame.lean ====
/-
  The proof data of the triplet-mining region and its body obligation. A row block's eight grid points run
  in order: the first resets the running maximum and minimum (kept in the two scratch operands) and folds
  the first column block in, the next six fold a column block in each, the last folds the eighth in and
  copies both to the output buffers, which the pipeline writes back there. What the two output buffers
  and the two scratch operands hold after each point is stated by recursion on the point, each case's
  contents the pieces its run found; the region invariant tracks the two scratch operands at those
  contents; the six input buffers hold their blocks at every point.
-/
import proofs.«175446_j81810537055054_1_alg».proof.Proof.FrKernel.RunC
import proofs.«175446_j81810537055054_1_alg».proof.Proof.FrKernel.Shares

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S512x1.size (by sl_kernel_rfl) y

/-- What case A leaves in the running-maximum scratch: its pieces read back. -/
def sout0_A_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

theorem scover0_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S512x1.size (by sl_kernel_rfl) y

/-- What case A leaves in the running-minimum scratch: its pieces read back. -/
def sout0_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

theorem scover0_B_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S512x1.size (by sl_kernel_rfl) y

/-- What case B leaves in the running-maximum scratch: its pieces read back. -/
def sout0_B_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

theorem scover0_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S512x1.size (by sl_kernel_rfl) y

/-- What case B leaves in the running-minimum scratch: its pieces read back. -/
def sout0_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

theorem cover0_C_6 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S512x1.size (by sl_kernel_rfl) y

/-- What case C leaves in output window 6's staging buffer: its pieces read back. -/
def out0_C_6 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

theorem cover0_C_7 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S512x1.size (by sl_kernel_rfl) y

/-- What case C leaves in output window 7's staging buffer: its pieces read back. -/
def out0_C_7 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

theorem scover0_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S512x1.size (by sl_kernel_rfl) y

/-- What case C leaves in the running-maximum scratch: its pieces read back. -/
def sout0_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

theorem scover0_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S512x1.size (by sl_kernel_rfl) y

/-- What case C leaves in the running-minimum scratch: its pieces read back. -/
def sout0_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the buffers hold after each point -/

/-- After the body at position `n`: the two output buffers, then the running maximum and the running minimum
    (the two scratch operands). At the first column block of a row block the scratch operands are reset and
    updated from nothing; elsewhere they are updated from what the point before left; the output buffers
    are written at the last column block only (elsewhere the component is a placeholder nothing reads). -/
def outsAt0 (c : Dev nD) : (n : ℕ) → n < cfg0.N → Vec F S512x1 .f32 × Vec F S512x1 .f32 × Vec F S512x1 .f32 × Vec F S512x1 .f32
  | 0, hn => (VO0_6.read (Elt F) VO0_6.junk, VO0_7.read (Elt F) VO0_7.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (VO0_6.read (Elt F) VO0_6.junk, VO0_7.read (Elt F) VO0_7.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (VO0_6.read (Elt F) VO0_6.junk, VO0_7.read (Elt F) VO0_7.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (VO0_6.read (Elt F) VO0_6.junk, VO0_7.read (Elt F) VO0_7.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (VO0_6.read (Elt F) VO0_6.junk, VO0_7.read (Elt F) VO0_7.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one (every scratch operand at
    anything); afterwards the two scratch operands at the running maximum and minimum the point before left,
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays as the region finds them; after the body at point
    `t` each input buffer at its block and the two output buffers at `outsAt0`'s components; the invariant
    tracking the two scratch operands; nothing owed; the matrix of points, read by two windows, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qs w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Fr

end
-- ==== Proof.FrKernel.Body.lean ====
/-
  The body obligation of the triplet-mining region: at every grid point the body, called on the current
  staging buffers and the two scratch operands, runs from the region invariant before the point to the
  invariant after it, leaving each input buffer at its block and — at the last column block of a row
  block — the two output buffers at the running maximum and minimum. By cases on the point's place in its
  row block (first column block, a middle one, the last), each case the run of that case.
-/
import proofs.«175446_j81810537055054_1_alg».proof.Proof.FrKernel.Frame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 8 = 0
  · by_cases h1 : t.val % 8 = 7
    · exfalso; omega
    ·
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · have hz : t.val ≠ 0 := fun e => h0 (by rw [e])
    by_cases h1 : t.val % 8 = 7
    · rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_6 out0_C_7 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ )
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ )
    ·
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Fr

end
-- ==== Proof.FrKernel.Tail.lean ====
/-
  The host lines after the region, read back at any memory they start from: the two results are the mean of
  the hinge of (hardest positive - hardest negative + margin) and the mean of the indicator (hardest negative
  > hardest positive), each a term of the two column arrays the region wrote (reshaped to vectors); the two
  argument arrays are not written.
-/
import proofs.«175446_j81810537055054_1_alg».proof.Proof.FrKernel.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result from the two arrays the region wrote. -/
def lossTerm (a6 a7 : FVec F S8192x1 .f32) : FVec F S_ .f32 :=
  Host.divf (Host.reduceAdd (maximumf (addf (subf (shapeCast S8192 a6 shapeCasts_S8192x1_S8192) (shapeCast S8192 a7 shapeCasts_S8192x1_S8192))
      (broadcastInDim S8192 ![] bcast_S_S8192 (constant S_ .f32 0x3E99999A#32))) (broadcastInDim S8192 ![] bcast_S_S8192 (constant S_ .f32 0x00000000#32)))
    (constant S_ .f32 0x00000000#32) reducesTo_S8192_S_d0 h_S_) (constant S_ .f32 0x46000000#32)

/-- The second result from the two arrays the region wrote. -/
def precTerm (a6 a7 : FVec F S8192x1 .f32) : FVec F S_ .f32 :=
  Host.divf (Host.reduceAdd (uitofp (F := F) .f32 (cmpf (F := F) .ogt (shapeCast S8192 a7 shapeCasts_S8192x1_S8192) (shapeCast S8192 a6 shapeCasts_S8192x1_S8192)))
    (constant S_ .f32 0x00000000#32) reducesTo_S8192_S_d0 h_S_) (constant S_ .f32 0x46000000#32)

theorem after_tail_v15 (W : Valuation τ sig (Elt F)) :
    StableHlo.after hostOps1 W (Proc.devRef .tc main_v15) = lossTerm (W (Proc.devRef .tc main_v6_0)) (W (Proc.devRef .tc main_v6_1)) := by
  simp only [hostOps1]
  after_results
  rfl

theorem after_tail_v19 (W : Valuation τ sig (Elt F)) :
    StableHlo.after hostOps1 W (Proc.devRef .tc main_v19) = precTerm (W (Proc.devRef .tc main_v6_0)) (W (Proc.devRef .tc main_v6_1)) := by
  simp only [hostOps1]
  after_results
  rfl

theorem after_tail_arg1 (W : Valuation τ sig (Elt F)) :
    StableHlo.after hostOps1 W (Proc.devRef .tc main_arg1) = W (Proc.devRef .tc main_arg1) := by
  simp only [hostOps1]
  after_results

end Cert.Kernel.Fr

end
-- ==== Proof.FrKernel.Launch.lean ====
/-
  The launch of the triplet-mining kernel's program, whose region reads the matrix of points through two windows
  (the row tile and the column tile) on ONE array. The full share of that array is dealt in halves to the two
  windows when the region is entered; every other array has one window, which holds it whole. The lines that
  follow the region read only the two result arrays and buffers that bypass the region, and write only
  bypassing buffers: they run within those, the five input arrays (the matrix at its two halves among them) set
  aside untouched. The run ends with every window's array at what the write-backs leave (an input array at its
  entry contents) and every bypassing buffer at what the later lines leave, started from the region-entry memory
  with the two result arrays at what the pipeline wrote back.
-/
import proofs.«175446_j81810537055054_1_alg».proof.Proof.FrKernel.Runs
import proofs.«175446_j81810537055054_1_alg».proof.Proof.FrKernel.Shares

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the region's exit -/

/-- The memory the lines after the region start from: the region-entry contents with the two result arrays at
    what the pipeline wrote back. -/
def exitVal (c : Dev nD) (a6 : Buf (Elt F) ((c : Thread nD τ).loc main_v6_0)) (a7 : Buf (Elt F) ((c : Thread nD τ).loc main_v6_1)) : Valuation τ sig (Elt F) :=
  Function.update (Function.update (V0 m c) (Proc.devRef .tc main_v6_0) a6) (Proc.devRef .tc main_v6_1) a7

/-! ## The arrays at the region's entry -/

/-- The buffers behind the windows' arrays, listed once each. -/
def arrL : List (Ref sig .tc) := [main_arg0, main_v2, main_v3, main_v4, main_v5, main_v6_0, main_v6_1]

theorem arrL_eq : Finset.univ.image (Pipeline.arrRef spec0) = arrL.toFinset := by decide

/-- The buffers behind the windows' arrays, each whole at contents `W`, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6_0) ↦{fullShare} W main_v6_0)
          ∗ (((c : Thread nD τ).loc main_v6_1) ↦{fullShare} W main_v6_1)) :=
  bigSep_eq_bigSepL_of_eq arrL arrL_eq (by decide) _

/-- The share the core holds each array at: an output window's array whole, an input window's at its own share. -/
theorem share_eq (c : Dev nD) (dat : Dat τ (Elt F) Unit ℕ (UR sig nD τ) ℕ cfg0 c) (hq : ∀ w, dat.q w = qs w) :
    dat.share 0 = fullShare.left ∧ dat.share 1 = fullShare.right ∧ dat.share 2 = fullShare ∧ dat.share 3 = fullShare
      ∧ dat.share 4 = fullShare ∧ dat.share 5 = fullShare ∧ dat.share 6 = fullShare ∧ dat.share 7 = fullShare := by
  refine ⟨?_, ?_, ?_, ?_, ?_, ?_, ?_, ?_⟩
  · exact (if_neg (by decide)).trans (hq 0)
  · exact (if_neg (by decide)).trans (hq 1)
  · exact (if_neg (by decide)).trans (hq 2)
  · exact (if_neg (by decide)).trans (hq 3)
  · exact (if_neg (by decide)).trans (hq 4)
  · exact (if_neg (by decide)).trans (hq 5)
  · exact if_pos rfl
  · exact if_pos rfl

/-- The windows' arrays at contents `A`, one by one: the matrix of points twice, at the two halves of its full share. -/
theorem arrays_eq (c : Dev nD) (dat : Dat τ (Elt F) Unit ℕ (UR sig nD τ) ℕ cfg0 c) (hq : ∀ w, dat.q w = qs w)
    (A : (w : Fin cfg0.W) → Buf (Elt F) ((cfg0.win w).arr.view.loc (c.tc : Thread nD τ))) :
    (dat.arrays A : sProp 𝕄)
      = iprop((((c : Thread nD τ).loc main_arg0) ↦{fullShare.left} A 0) ∗ (((c : Thread nD τ).loc main_arg0) ↦{fullShare.right} A 1)
          ∗ (((c : Thread nD τ).loc main_v2) ↦{fullShare} A 2) ∗ (((c : Thread nD τ).loc main_v3) ↦{fullShare} A 3)
          ∗ (((c : Thread nD τ).loc main_v4) ↦{fullShare} A 4) ∗ (((c : Thread nD τ).loc main_v5) ↦{fullShare} A 5)
          ∗ (((c : Thread nD τ).loc main_v6_0) ↦{fullShare} A 6) ∗ (((c : Thread nD τ).loc main_v6_1) ↦{fullShare} A 7)) := by
  obtain ⟨h0, h1, h2, h3, h4, h5, h6, h7⟩ := share_eq c dat hq
  unfold Dat.arrays
  rw [bigSep_W0]
  simp only [View.set_whole, h0, h1, h2, h3, h4, h5, h6, h7]

/-- At the region's entry the buffers behind the arrays, each whole, make the windows' arrays at their shares: the
    matrix of points is halved between the row-tile window and the column-tile window. -/
theorem arrays_enter (c : Dev nD) (dat : Dat τ (Elt F) Unit ℕ (UR sig nD τ) ℕ cfg0 c) (hq : ∀ w, dat.q w = qs w)
    (hA : ∀ w, dat.A w = V m c (Pipeline.arrRef spec0 w)) :
    (Pipeline.arrBufs spec0 c (V m c) : sProp 𝕄) ⊢ dat.arrays (dat.arrAt · 0) := by
  rw [arrBufs_eq, arrays_eq c dat hq]
  simp only [Dat.arrAt, hA]
  iintro ⟨H0, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-! ## The lines after the region -/

/-- The buffers the lines after the region run within: the two result arrays and every buffer that bypasses the region. -/
def tailL : List (Ref sig .tc) := [main_v6_0, main_v6_1, main_arg1, main_v0, main_cst, main_v1, main_v7, main_v8, main_v9, main_cst_0, main_v10, main_v11, main_cst_1, main_v12, main_v13, main_cst_2, main_v14, main_cst_3, main_v15, main_v16, main_v17, main_cst_4, main_v18, main_cst_5, main_v19]

/-- The same as device buffers. -/
def tailS : Finset (DevRef τ sig) := tailL.toFinset.map ⟨Proc.devRef (sig := sig) .tc, Proc.devRef_injective _⟩

theorem devRef_mem_tailS (r : Ref sig .tc) : Proc.devRef (τ := τ) .tc r ∈ tailS ↔ r ∈ tailL :=
  (Finset.mem_map' ⟨Proc.devRef (sig := sig) (.tc : Proc τ), Proc.devRef_injective _⟩).trans List.mem_toFinset

/-- Held at a valuation they are the two result arrays and the bypassing buffers at it. -/
theorem held_tailS (c : Dev nD) (W : Valuation τ sig (Elt F)) :
    (StableHlo.held (c.tc : Thread nD τ) tailS W : sProp 𝕄)
      = iprop((((c : Thread nD τ).loc main_v6_0) ↦{fullShare} W (Proc.devRef .tc main_v6_0))
          ∗ (((c : Thread nD τ).loc main_v6_1) ↦{fullShare} W (Proc.devRef .tc main_v6_1))
          ∗ Pipeline.unscopedRest (Ix := Unit) (Name := ℕ) (U := UR sig nD τ) (Lvl := ℕ) spec0 c (fun b => W (Proc.devRef .tc b))) := by
  unfold StableHlo.held tailS
  rw [bigSep_map, unscopedRest0_eq]
  exact bigSep_eq_bigSepL tailL (by decide) _

/-- Every line after the region touches only those buffers. -/
theorem tail_sub : ∀ op ∈ (hostOps1 : List (HloOp τ sig (Elt F))), op.bufs ⊆ tailS := by
  refine List.forall_iff_forall_mem.mp ?_
  simp only [hostOps1, List.Forall, StableHlo.nullary_bufs, StableHlo.unary_bufs, StableHlo.binary_bufs, StableHlo.reshape_bufs,
    Finset.insert_subset_iff, Finset.singleton_subset_iff, devRef_mem_tailS]
  decide

/-- No line after the region writes a result array of the region. -/
theorem after_v6_0 (W : Valuation τ sig (Elt F)) :
    StableHlo.after hostOps1 W (Proc.devRef .tc main_v6_0) = W (Proc.devRef .tc main_v6_0) := by
  simp only [hostOps1]
  after_results
theorem after_v6_1 (W : Valuation τ sig (Elt F)) :
    StableHlo.after hostOps1 W (Proc.devRef .tc main_v6_1) = W (Proc.devRef .tc main_v6_1) := by
  simp only [hostOps1]
  after_results

/-! ## The memory at the region's exit -/

theorem exitVal_v6_0 (c : Dev nD) (a6 : Buf (Elt F) ((c : Thread nD τ).loc main_v6_0)) (a7 : Buf (Elt F) ((c : Thread nD τ).loc main_v6_1)) :
    exitVal m c a6 a7 (Proc.devRef .tc main_v6_0) = a6 := by
  unfold exitVal
  rw [Function.update_of_ne (StableHlo.devRef_ne_of_ne (by decide)), Function.update_self]

theorem exitVal_v6_1 (c : Dev nD) (a6 : Buf (Elt F) ((c : Thread nD τ).loc main_v6_0)) (a7 : Buf (Elt F) ((c : Thread nD τ).loc main_v6_1)) :
    exitVal m c a6 a7 (Proc.devRef .tc main_v6_1) = a7 := by
  unfold exitVal
  rw [Function.update_self]

/-- A buffer that bypasses the region holds at the exit what it held at the entry. -/
theorem exitVal_rest (c : Dev nD) (a6 : Buf (Elt F) ((c : Thread nD τ).loc main_v6_0)) (a7 : Buf (Elt F) ((c : Thread nD τ).loc main_v6_1))
    (b : Ref sig .tc) (hb : b ∈ Pipeline.restRefs sig spec0) : exitVal m c a6 a7 (Proc.devRef .tc b) = V m c b := by
  have h6 : b ≠ main_v6_0 := fun e => (Finset.mem_sdiff.mp hb).2 (Finset.mem_image.mpr ⟨6, Finset.mem_univ _, e.symm⟩)
  have h7 : b ≠ main_v6_1 := fun e => (Finset.mem_sdiff.mp hb).2 (Finset.mem_image.mpr ⟨7, Finset.mem_univ _, e.symm⟩)
  unfold exitVal
  rw [Function.update_of_ne (StableHlo.devRef_ne_of_ne h7), Function.update_of_ne (StableHlo.devRef_ne_of_ne h6)]

/-- So the bypassing buffers, held at the exit memory, are held at their entry contents. -/
theorem rest_exit (c : Dev nD) (a6 : Buf (Elt F) ((c : Thread nD τ).loc main_v6_0)) (a7 : Buf (Elt F) ((c : Thread nD τ).loc main_v6_1)) :
    (Pipeline.unscopedRest (Ix := Unit) (Name := ℕ) (U := UR sig nD τ) (Lvl := ℕ) spec0 c (fun b => exitVal m c a6 a7 (Proc.devRef .tc b)) : sProp 𝕄)
      = Pipeline.unscopedRest spec0 c (V m c) := by
  unfold Pipeline.unscopedRest
  exact bigSep_congr fun b hb => by beta_reduce; rw [exitVal_rest m c a6 a7 b hb]

/-- One stretch of lines is its lines. -/
theorem flatten_one : ([hostOps1] : List (List (HloOp τ sig (Elt F)))).flatten = hostOps1 := by
  rw [List.flatten_cons, List.flatten_nil, List.append_nil]

/-- THE LINES AFTER THE REGION: from the region's exit — the boundary, the windows' arrays at contents `A` and at their
    shares, the bypassing buffers at their entry contents — the lines run within the two result arrays and the bypassing
    buffers, the five input arrays (the matrix of points at its two halves among them) set aside untouched, and hand back the
    arrays as they were and the bypassing buffers at what the lines leave from the exit memory. -/
theorem tail_lines (c : Dev nD) (dat : Dat τ (Elt F) Unit ℕ (UR sig nD τ) ℕ cfg0 c) (hq : ∀ w, dat.q w = qs w)
    (A : (w : Fin cfg0.W) → Buf (Elt F) ((cfg0.win w).arr.view.loc (c.tc : Thread nD τ))) (Q' : PUnit → sProp 𝕄) :
    iprop((iprop(dat.arrays A ∗ Pipeline.unscopedRestP (Ix := Unit) (Name := ℕ) (U := UR sig nD τ) (Lvl := ℕ) Pipeline.Prefetch.none spec0 c
              (fun b => StableHlo.after hostOps1 (exitVal m c (A 6) (A 7)) (Proc.devRef .tc b))) -∗ Q' ⟨⟩)
        ∗ boundary (c.tc : Thread nD τ) ∗ dat.arrays A
        ∗ Pipeline.unscopedRestP (Ix := Unit) (Name := ℕ) (U := UR sig nD τ) (Lvl := ℕ) Pipeline.Prefetch.none spec0 c (V m c))
      ⊢ wp frame (wpE (Pipeline.defs (fun p => (cfgs p).toPCfg) (defs₀ (F := F))) (Variants.lift Variants.none) (c.tc : Thread nD τ) none) Set.univ
          (Pipeline.chain [StableHlo.seq hostOps1]) Q' := by
  have hW : (StableHlo.held (c.tc : Thread nD τ) tailS (exitVal m c (A 6) (A 7)) : sProp 𝕄)
      = iprop((((c : Thread nD τ).loc main_v6_0) ↦{fullShare} A 6) ∗ (((c : Thread nD τ).loc main_v6_1) ↦{fullShare} A 7)
          ∗ Pipeline.unscopedRest (Ix := Unit) (Name := ℕ) (U := UR sig nD τ) (Lvl := ℕ) spec0 c (V m c)) := by
    rw [held_tailS, exitVal_v6_0, exitVal_v6_1, rest_exit]
  have hW' : (StableHlo.held (c.tc : Thread nD τ) tailS (StableHlo.after hostOps1 (exitVal m c (A 6) (A 7))) : sProp 𝕄)
      = iprop((((c : Thread nD τ).loc main_v6_0) ↦{fullShare} A 6) ∗ (((c : Thread nD τ).loc main_v6_1) ↦{fullShare} A 7)
          ∗ Pipeline.unscopedRest (Ix := Unit) (Name := ℕ) (U := UR sig nD τ) (Lvl := ℕ) spec0 c
              (fun b => StableHlo.after hostOps1 (exitVal m c (A 6) (A 7)) (Proc.devRef .tc b))) := by
    rw [held_tailS, after_v6_0, after_v6_1, exitVal_v6_0, exitVal_v6_1]
  rw [Pipeline.unscopedRestP_none, Pipeline.unscopedRestP_none, arrays_eq c dat hq]
  change _ ⊢ wp frame _ Set.univ (Pipeline.chain (([hostOps1] : List (List (HloOp τ sig (Elt F)))).map StableHlo.seq ++ [])) Q'
  iintro ⟨Hk, Hb, ⟨H0, H1, H2, H3, H4, H5, H6, H7⟩, HZ⟩
  iapply (Pipeline.wp_seqs_then (fun p => (cfgs p).toPCfg) defs₀ Variants.none c tailS [] [hostOps1]
    (fun ops hops op hop => by rw [List.mem_singleton] at hops; subst hops; exact tail_sub op hop)
    (fun ops hops op hop => by rw [List.mem_singleton] at hops; subst hops; exact (List.forall_iff_forall_mem.mp hostOps1_fresh) op hop)
    (exitVal m c (A 6) (A 7))) $$ [Hb H6 H7 HZ]
  · rw [hW]
    isplitl [Hb]; · iexact Hb
    isplitl [H6]; · iexact H6
    isplitl [H7]; · iexact H7
    iexact HZ
  iintro Hb
  rw [Pipeline.chain_nil, wp_pure, flatten_one, hW']
  imodintro
  icases Hb with ⟨-, H6, H7, HZ⟩
  iapply Hk
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HZ

/-! ## The run -/

theorem run_around (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qs w) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem (((spec0 w).arr.view.loc (c.tc : Thread nD τ))) = (dats 0 c).arrAt w cfg0.N)
      ∧ ∀ b ∈ Pipeline.restRefs sig spec0, r.2.mem ((c.tc : Thread nD τ).loc b)
          = StableHlo.after hostOps1 (exitVal m c ((dats 0 c).arrAt 6 cfg0.N) ((dats 0 c).arrAt 7 cfg0.N)) (Proc.devRef .tc b)) := by
  classical
  exact Pipeline.θ_run_region_pf_tail (fun p => (cfgs p).toPCfg) (fun p => (cfgs p).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_enter m c (dats 0 c) (hq c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (exitVal m c ((dats 0 c).arrAt 6 cfg0.N) ((dats 0 c).arrAt 7 cfg0.N)) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_lines m c (dats 0 c) (hq c) (fun w => (dats 0 c).arrAt w cfg0.N) Q')
    (QY := fun c s => ∀ b ∈ Pipeline.restRefsP sig Pipeline.Prefetch.none spec0, s.mem ((c.tc : Thread nD τ).loc b)
      = StableHlo.after hostOps1 (exitVal m c ((dats 0 c).arrAt 6 cfg0.N) ((dats 0 c).arrAt 7 cfg0.N)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (exitVal m c ((dats 0 c).arrAt 6 cfg0.N) ((dats 0 c).arrAt 7 cfg0.N)) (Proc.devRef .tc b)) s')
      isplitl [HU] <;> iassumption)
    (hQ := fun s h c => ⟨(h c).1, Pipeline.rest_of_restP Pipeline.Prefetch.none spec0 (fun k => k.elim0) c _ s (fun k => k.elim0) (h c).2.1 (h c).2.2⟩)

end Cert.Kernel.Fr

end
-- ==== Proof.FrKernel.FrameClaim.lean ====
/-
  The frame consequence of the triplet-mining program's run: every weakly fair execution terminates with both
  argument arrays holding what they held at the launch. The matrix of points is the array of an input window
  (two of them), which the pipeline never writes, and the host lines before the region do not write it; the
  label vector is no window's array, so the region passes it by at what the host lines before it left, which
  is the launch contents, and the host lines after the region do not write it either.
-/
import proofs.«175446_j81810537055054_1_alg».proof.Proof.FrKernel.Body
import proofs.«175446_j81810537055054_1_alg».proof.Proof.FrKernel.Tail
import proofs.«175446_j81810537055054_1_alg».proof.Proof.FrKernel.Launch

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's run at this region's proof data: every window's array at what the pipeline's write-backs
    leave, every buffer the region passes by at what the host lines after the region compute from the memory at
    the region's exit. -/
theorem run_dats :
    θ_run defs (onTc (τ := τ) (main (F := F))) (s₀ m ρ) (fun r => ∀ c : Dev nD,
      (∀ w, r.2.mem (((spec0 w).arr.view.loc (c.tc : Thread nD τ))) = (dats m 0 c).arrAt w cfg0.N)
      ∧ ∀ b ∈ Pipeline.restRefs sig spec0, r.2.mem ((c.tc : Thread nD τ).loc b)
          = StableHlo.after hostOps1 (exitVal m c ((dats m 0 c).arrAt 6 cfg0.N) ((dats m 0 c).arrAt 7 cfg0.N)) (Proc.devRef .tc b)) :=
  run_around m ρ (dats m) (fun c => (body_obligation m c).loose) (q_eq m) (fun _ _ => rfl) (A_eq m) (hin m) (hout m)

/-- The label vector is no window's array and is not scoped: the region passes it by. -/
theorem arg1_rest : main_arg1 ∈ Pipeline.restRefs sig spec0 :=
  Pipeline.mem_restRefs_of main_arg1 rfl (by decide)

/-- After the whole program the matrix of points holds what it held: it is an input window's array. -/
theorem arg0_kept (c : Dev nD) : (dats m 0 c).arrAt 0 cfg0.N = m ((c : Thread nD τ).loc main_arg0) :=
  ((dats m 0 c).arrAt_in 0 rfl cfg0.N).trans ((A_eq m c 0).trans (V_main_arg0 m c))

/-- The host lines after the region leave the label vector at its launch contents, whatever the region wrote. -/
theorem arg1_kept (c : Dev nD) (a6 : Buf (Elt F) ((c : Thread nD τ).loc main_v6_0)) (a7 : Buf (Elt F) ((c : Thread nD τ).loc main_v6_1)) :
    StableHlo.after hostOps1 (exitVal m c a6 a7) (Proc.devRef .tc main_arg1) = m ((c : Thread nD τ).loc main_arg1) :=
  (after_tail_arg1 _).trans ((exitVal_rest m c a6 a7 main_arg1 arg1_rest).trans (V_main_arg1 m c))

/-- Every weakly fair execution of the program terminates with both argument arrays as they were. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 0).trans (arg0_kept m c), ((h c).2 main_arg1 arg1_rest).trans (arg1_kept m c _ _)⟩)
    (run_dats m ρ)

end Cert.Kernel.Fr

end
-- ==== Proof.FrKernelIdeal.Runs.lean ====
/-
  The region of the triplet-mining kernel, the vocabulary its per-case runs and its proof data share:
  the memory as the region finds it (the squared norms and the two layouts of norms and labels are
  already written by the host lines before it), each window's block at a grid point, the two branch
  conditions of the body in closed form over the grid (first column block: the running maximum and
  minimum are reset; last column block: they are copied to the outputs), where the two output windows
  are idle, and the staging and scratch memrefs the body is called with.
-/
import proofs.«175446_j81810537055054_1_alg».proof.Proof.Gen.KernelIdeal.Launch
import proofs.«175446_j81810537055054_1_alg».proof.Proof.Gen.KernelIdeal.Skeleton
import proofs.«175446_j81810537055054_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines, the region, the host lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region write neither argument. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch of the body (reset of the running maximum and minimum), from the grid coordinates. -/
abbrev cond0_0 (i : grid0.Coords) : Prop := (Scalar.cmpi .ne (Scalar.extui (Scalar.cmpi .eq (BitVec.ofNat 32 (i 1).val) 0#32)) 0#32) = 1#1
/-- It is taken at the first of the eight column blocks. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch of the body (the copy to the outputs), from the grid coordinates. -/
abbrev cond0_1 (i : grid0.Coords) : Prop := k0_cond2 i = 1#1
/-- It is taken at the last of the eight column blocks. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The memrefs the body is called with -/

abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The two scratch operands: the running maximum and the running minimum of a row block. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- The region's plain invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.FrKernelIdeal.RunA.lean ====
/-
  The body at the FIRST column block of a row block (the reset branch taken, the copy branch not): run on
  whole staging memrefs holding the six input blocks, it resets the two scratch operands, then stores into
  each the combination of the reset value with the block's masked row maximum, resp. minimum; the two
  output buffers are not touched. The pieces the scratch operands end with are the witness the run finds.
-/
import proofs.«175446_j81810537055054_1_alg».proof.Proof.FrKernelIdeal.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.FrKernelIdeal.RunB.lean ====
/-
  The body at a MIDDLE column block of a row block (neither branch taken): run on whole staging memrefs
  holding the six input blocks and on the two scratch operands at the running maximum and minimum the
  column blocks before left, it stores into each scratch operand its contents combined with this block's
  masked row maximum, resp. minimum; the two output buffers are not touched.
-/
import proofs.«175446_j81810537055054_1_alg».proof.Proof.FrKernelIdeal.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    Σ' (LS0 : List (View.Piece (Elt F) S512x1 .f32)), { LS1 : List (View.Piece (Elt F) S512x1 .f32) //
      ∀ (xi6 xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Fr

end
-- ==== Proof.FrKernelIdeal.RunC.lean ====
/-
  The body at the LAST column block of a row block (the reset branch not taken, the copy branch taken): as
  at a middle block the two scratch operands are combined with this block's masked row maximum and minimum,
  and then each is loaded and stored whole into its output buffer. The pieces the two scratch operands and
  the two output buffers end with are the witness the run finds.
-/
import proofs.«175446_j81810537055054_1_alg».proof.Proof.FrKernelIdeal.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    Σ' (L6 : List (View.Piece (Elt F) S512x1 .f32)) (L7 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.Fr

end
-- ==== Proof.FrKernelIdeal.Shares.lean ====
/-
  How the full share of each array behind the kernel's windows is dealt among the windows on it: the matrix of
  points is read by two input windows (the row tile and the column tile), which hold one half each; every
  other array has one window, which holds it whole.
-/
import Idealize.ShloMosaic.Lib.Pipeline.Kit

noncomputable section

namespace Cert.KernelIdeal.Fr

open Idealize.ShloMosaic Idealize.SL Idealize.SL.RA

/-- The share window `w` holds of its array. -/
def qs : Fin 8 → PosShare TreeShare
  | ⟨0, _⟩ => fullShare.left
  | ⟨1, _⟩ => fullShare.right
  | _ => fullShare

end Cert.KernelIdeal.Fr

end
-- ==== Proof.FrKernelIdeal.Frame.lean ====
/-
  The proof data of the triplet-mining region and its body obligation. A row block's eight grid points run
  in order: the first resets the running maximum and minimum (kept in the two scratch operands) and folds
  the first column block in, the next six fold a column block in each, the last folds the eighth in and
  copies both to the output buffers, which the pipeline writes back there. What the two output buffers
  and the two scratch operands hold after each point is stated by recursion on the point, each case's
  contents the pieces its run found; the region invariant tracks the two scratch operands at those
  contents; the six input buffers hold their blocks at every point.
-/
import proofs.«175446_j81810537055054_1_alg».proof.Proof.FrKernelIdeal.RunC
import proofs.«175446_j81810537055054_1_alg».proof.Proof.FrKernelIdeal.Shares

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S512x1.size (by sl_kernel_rfl) y

/-- What case A leaves in the running-maximum scratch: its pieces read back. -/
def sout0_A_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).1)

theorem scover0_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S512x1.size (by sl_kernel_rfl) y

/-- What case A leaves in the running-minimum scratch: its pieces read back. -/
def sout0_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

theorem scover0_B_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1 S512x1.size (by sl_kernel_rfl) y

/-- What case B leaves in the running-maximum scratch: its pieces read back. -/
def sout0_B_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).1)

theorem scover0_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1 S512x1.size (by sl_kernel_rfl) y

/-- What case B leaves in the running-minimum scratch: its pieces read back. -/
def sout0_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.1)

theorem cover0_C_6 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S512x1.size (by sl_kernel_rfl) y

/-- What case C leaves in output window 6's staging buffer: its pieces read back. -/
def out0_C_6 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

theorem cover0_C_7 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S512x1.size (by sl_kernel_rfl) y

/-- What case C leaves in output window 7's staging buffer: its pieces read back. -/
def out0_C_7 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

theorem scover0_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S512x1.size (by sl_kernel_rfl) y

/-- What case C leaves in the running-maximum scratch: its pieces read back. -/
def sout0_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

theorem scover0_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S512x1.size (by sl_kernel_rfl) y

/-- What case C leaves in the running-minimum scratch: its pieces read back. -/
def sout0_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-! ## What the buffers hold after each point -/

/-- After the body at position `n`: the two output buffers, then the running maximum and the running minimum
    (the two scratch operands). At the first column block of a row block the scratch operands are reset and
    updated from nothing; elsewhere they are updated from what the point before left; the output buffers
    are written at the last column block only (elsewhere the component is a placeholder nothing reads). -/
def outsAt0 (c : Dev nD) : (n : ℕ) → n < cfg0.N → Vec F S512x1 .f32 × Vec F S512x1 .f32 × Vec F S512x1 .f32 × Vec F S512x1 .f32
  | 0, hn => (VO0_6.read (Elt F) VO0_6.junk, VO0_7.read (Elt F) VO0_7.junk, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (VO0_6.read (Elt F) VO0_6.junk, VO0_7.read (Elt F) VO0_7.junk, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (VO0_6.read (Elt F) VO0_6.junk, VO0_7.read (Elt F) VO0_7.junk, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (VO0_6.read (Elt F) VO0_6.junk, VO0_7.read (Elt F) VO0_7.junk, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (VO0_6.read (Elt F) VO0_6.junk, VO0_7.read (Elt F) VO0_7.junk, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the plain one (every scratch operand at
    anything); afterwards the two scratch operands at the running maximum and minimum the point before left,
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays as the region finds them; after the body at point
    `t` each input buffer at its block and the two output buffers at `outsAt0`'s components; the invariant
    tracking the two scratch operands; nothing owed; the matrix of points, read by two windows, held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q := qs
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qs w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Fr

end
-- ==== Proof.FrKernelIdeal.Body.lean ====
/-
  The body obligation of the triplet-mining region: at every grid point the body, called on the current
  staging buffers and the two scratch operands, runs from the region invariant before the point to the
  invariant after it, leaving each input buffer at its block and — at the last column block of a row
  block — the two output buffers at the running maximum and minimum. By cases on the point's place in its
  row block (first column block, a middle one, the last), each case the run of that case.
-/
import proofs.«175446_j81810537055054_1_alg».proof.Proof.FrKernelIdeal.Frame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 8 = 0
  · by_cases h1 : t.val % 8 = 7
    · exfalso; omega
    ·
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        iintro ⟨H0, H1, H2, H3, H4, H5, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ )
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · have hz : t.val ≠ 0 := fun e => h0 (by rw [e])
    by_cases h1 : t.val % 8 = 7
    · rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
        unfold Dat.leavesExact; rw [liveAt0_7_C t (fun h => h0 ((hcond0_0 t).mp h)) ((hcond0_1 t).mpr h1)], after0_7]
      rw [outsAt0_C m c t h0 h1]
      unfold out0_C_6 out0_C_7 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ )
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ )
    ·
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Fr

end
-- ==== Proof.FrKernelIdeal.Tail.lean ====
/-
  The host lines after the region, read back at any memory they start from: the two results are the mean of
  the hinge of (hardest positive - hardest negative + margin) and the mean of the indicator (hardest negative
  > hardest positive), each a term of the two column arrays the region wrote (reshaped to vectors); the two
  argument arrays are not written.
-/
import proofs.«175446_j81810537055054_1_alg».proof.Proof.FrKernelIdeal.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result from the two arrays the region wrote. -/
def lossTerm (a6 a7 : FVec F S8192x1 .f32) : FVec F S_ .f32 :=
  Host.divf (Host.reduceAdd (maximumf (addf (subf (shapeCast S8192 a6 shapeCasts_S8192x1_S8192) (shapeCast S8192 a7 shapeCasts_S8192x1_S8192))
      (broadcastInDim S8192 ![] bcast_S_S8192 (constant S_ .f32 0x3E99999A#32))) (broadcastInDim S8192 ![] bcast_S_S8192 (constant S_ .f32 0x00000000#32)))
    (constant S_ .f32 0x00000000#32) reducesTo_S8192_S_d0 h_S_) (constant S_ .f32 0x46000000#32)

/-- The second result from the two arrays the region wrote. -/
def precTerm (a6 a7 : FVec F S8192x1 .f32) : FVec F S_ .f32 :=
  Host.divf (Host.reduceAdd (uitofp (F := F) .f32 (cmpf (F := F) .ogt (shapeCast S8192 a7 shapeCasts_S8192x1_S8192) (shapeCast S8192 a6 shapeCasts_S8192x1_S8192)))
    (constant S_ .f32 0x00000000#32) reducesTo_S8192_S_d0 h_S_) (constant S_ .f32 0x46000000#32)

theorem after_tail_v15 (W : Valuation τ sig (Elt F)) :
    StableHlo.after hostOps1 W (Proc.devRef .tc main_v15) = lossTerm (W (Proc.devRef .tc main_v6_0)) (W (Proc.devRef .tc main_v6_1)) := by
  simp only [hostOps1]
  after_results
  rfl

theorem after_tail_v19 (W : Valuation τ sig (Elt F)) :
    StableHlo.after hostOps1 W (Proc.devRef .tc main_v19) = precTerm (W (Proc.devRef .tc main_v6_0)) (W (Proc.devRef .tc main_v6_1)) := by
  simp only [hostOps1]
  after_results
  rfl

theorem after_tail_arg1 (W : Valuation τ sig (Elt F)) :
    StableHlo.after hostOps1 W (Proc.devRef .tc main_arg1) = W (Proc.devRef .tc main_arg1) := by
  simp only [hostOps1]
  after_results

end Cert.KernelIdeal.Fr

end
-- ==== Proof.FrKernelIdeal.Launch.lean ====
/-
  The launch of the triplet-mining kernel's program, whose region reads the matrix of points through two windows
  (the row tile and the column tile) on ONE array. The full share of that array is dealt in halves to the two
  windows when the region is entered; every other array has one window, which holds it whole. The lines that
  follow the region read only the two result arrays and buffers that bypass the region, and write only
  bypassing buffers: they run within those, the five input arrays (the matrix at its two halves among them) set
  aside untouched. The run ends with every window's array at what the write-backs leave (an input array at its
  entry contents) and every bypassing buffer at what the later lines leave, started from the region-entry memory
  with the two result arrays at what the pipeline wrote back.
-/
import proofs.«175446_j81810537055054_1_alg».proof.Proof.FrKernelIdeal.Runs
import proofs.«175446_j81810537055054_1_alg».proof.Proof.FrKernelIdeal.Shares

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the region's exit -/

/-- The memory the lines after the region start from: the region-entry contents with the two result arrays at
    what the pipeline wrote back. -/
def exitVal (c : Dev nD) (a6 : Buf (Elt F) ((c : Thread nD τ).loc main_v6_0)) (a7 : Buf (Elt F) ((c : Thread nD τ).loc main_v6_1)) : Valuation τ sig (Elt F) :=
  Function.update (Function.update (V0 m c) (Proc.devRef .tc main_v6_0) a6) (Proc.devRef .tc main_v6_1) a7

/-! ## The arrays at the region's entry -/

/-- The buffers behind the windows' arrays, listed once each. -/
def arrL : List (Ref sig .tc) := [main_arg0, main_v2, main_v3, main_v4, main_v5, main_v6_0, main_v6_1]

theorem arrL_eq : Finset.univ.image (Pipeline.arrRef spec0) = arrL.toFinset := by decide

/-- The buffers behind the windows' arrays, each whole at contents `W`, one by one. -/
theorem arrBufs_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)
          ∗ (((c : Thread nD τ).loc main_v5) ↦{fullShare} W main_v5) ∗ (((c : Thread nD τ).loc main_v6_0) ↦{fullShare} W main_v6_0)
          ∗ (((c : Thread nD τ).loc main_v6_1) ↦{fullShare} W main_v6_1)) :=
  bigSep_eq_bigSepL_of_eq arrL arrL_eq (by decide) _

/-- The share the core holds each array at: an output window's array whole, an input window's at its own share. -/
theorem share_eq (c : Dev nD) (dat : Dat τ (Elt F) Unit ℕ (UR sig nD τ) ℕ cfg0 c) (hq : ∀ w, dat.q w = qs w) :
    dat.share 0 = fullShare.left ∧ dat.share 1 = fullShare.right ∧ dat.share 2 = fullShare ∧ dat.share 3 = fullShare
      ∧ dat.share 4 = fullShare ∧ dat.share 5 = fullShare ∧ dat.share 6 = fullShare ∧ dat.share 7 = fullShare := by
  refine ⟨?_, ?_, ?_, ?_, ?_, ?_, ?_, ?_⟩
  · exact (if_neg (by decide)).trans (hq 0)
  · exact (if_neg (by decide)).trans (hq 1)
  · exact (if_neg (by decide)).trans (hq 2)
  · exact (if_neg (by decide)).trans (hq 3)
  · exact (if_neg (by decide)).trans (hq 4)
  · exact (if_neg (by decide)).trans (hq 5)
  · exact if_pos rfl
  · exact if_pos rfl

/-- The windows' arrays at contents `A`, one by one: the matrix of points twice, at the two halves of its full share. -/
theorem arrays_eq (c : Dev nD) (dat : Dat τ (Elt F) Unit ℕ (UR sig nD τ) ℕ cfg0 c) (hq : ∀ w, dat.q w = qs w)
    (A : (w : Fin cfg0.W) → Buf (Elt F) ((cfg0.win w).arr.view.loc (c.tc : Thread nD τ))) :
    (dat.arrays A : sProp 𝕄)
      = iprop((((c : Thread nD τ).loc main_arg0) ↦{fullShare.left} A 0) ∗ (((c : Thread nD τ).loc main_arg0) ↦{fullShare.right} A 1)
          ∗ (((c : Thread nD τ).loc main_v2) ↦{fullShare} A 2) ∗ (((c : Thread nD τ).loc main_v3) ↦{fullShare} A 3)
          ∗ (((c : Thread nD τ).loc main_v4) ↦{fullShare} A 4) ∗ (((c : Thread nD τ).loc main_v5) ↦{fullShare} A 5)
          ∗ (((c : Thread nD τ).loc main_v6_0) ↦{fullShare} A 6) ∗ (((c : Thread nD τ).loc main_v6_1) ↦{fullShare} A 7)) := by
  obtain ⟨h0, h1, h2, h3, h4, h5, h6, h7⟩ := share_eq c dat hq
  unfold Dat.arrays
  rw [bigSep_W0]
  simp only [View.set_whole, h0, h1, h2, h3, h4, h5, h6, h7]

/-- At the region's entry the buffers behind the arrays, each whole, make the windows' arrays at their shares: the
    matrix of points is halved between the row-tile window and the column-tile window. -/
theorem arrays_enter (c : Dev nD) (dat : Dat τ (Elt F) Unit ℕ (UR sig nD τ) ℕ cfg0 c) (hq : ∀ w, dat.q w = qs w)
    (hA : ∀ w, dat.A w = V m c (Pipeline.arrRef spec0 w)) :
    (Pipeline.arrBufs spec0 c (V m c) : sProp 𝕄) ⊢ dat.arrays (dat.arrAt · 0) := by
  rw [arrBufs_eq, arrays_eq c dat hq]
  simp only [Dat.arrAt, hA]
  iintro ⟨H0, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  iexact H7

/-! ## The lines after the region -/

/-- The buffers the lines after the region run within: the two result arrays and every buffer that bypasses the region. -/
def tailL : List (Ref sig .tc) := [main_v6_0, main_v6_1, main_arg1, main_v0, main_cst, main_v1, main_v7, main_v8, main_v9, main_cst_0, main_v10, main_v11, main_cst_1, main_v12, main_v13, main_cst_2, main_v14, main_cst_3, main_v15, main_v16, main_v17, main_cst_4, main_v18, main_cst_5, main_v19]

/-- The same as device buffers. -/
def tailS : Finset (DevRef τ sig) := tailL.toFinset.map ⟨Proc.devRef (sig := sig) .tc, Proc.devRef_injective _⟩

theorem devRef_mem_tailS (r : Ref sig .tc) : Proc.devRef (τ := τ) .tc r ∈ tailS ↔ r ∈ tailL :=
  (Finset.mem_map' ⟨Proc.devRef (sig := sig) (.tc : Proc τ), Proc.devRef_injective _⟩).trans List.mem_toFinset

/-- Held at a valuation they are the two result arrays and the bypassing buffers at it. -/
theorem held_tailS (c : Dev nD) (W : Valuation τ sig (Elt F)) :
    (StableHlo.held (c.tc : Thread nD τ) tailS W : sProp 𝕄)
      = iprop((((c : Thread nD τ).loc main_v6_0) ↦{fullShare} W (Proc.devRef .tc main_v6_0))
          ∗ (((c : Thread nD τ).loc main_v6_1) ↦{fullShare} W (Proc.devRef .tc main_v6_1))
          ∗ Pipeline.unscopedRest (Ix := Unit) (Name := ℕ) (U := UR sig nD τ) (Lvl := ℕ) spec0 c (fun b => W (Proc.devRef .tc b))) := by
  unfold StableHlo.held tailS
  rw [bigSep_map, unscopedRest0_eq]
  exact bigSep_eq_bigSepL tailL (by decide) _

/-- Every line after the region touches only those buffers. -/
theorem tail_sub : ∀ op ∈ (hostOps1 : List (HloOp τ sig (Elt F))), op.bufs ⊆ tailS := by
  refine List.forall_iff_forall_mem.mp ?_
  simp only [hostOps1, List.Forall, StableHlo.nullary_bufs, StableHlo.unary_bufs, StableHlo.binary_bufs, StableHlo.reshape_bufs,
    Finset.insert_subset_iff, Finset.singleton_subset_iff, devRef_mem_tailS]
  decide

/-- No line after the region writes a result array of the region. -/
theorem after_v6_0 (W : Valuation τ sig (Elt F)) :
    StableHlo.after hostOps1 W (Proc.devRef .tc main_v6_0) = W (Proc.devRef .tc main_v6_0) := by
  simp only [hostOps1]
  after_results
theorem after_v6_1 (W : Valuation τ sig (Elt F)) :
    StableHlo.after hostOps1 W (Proc.devRef .tc main_v6_1) = W (Proc.devRef .tc main_v6_1) := by
  simp only [hostOps1]
  after_results

/-! ## The memory at the region's exit -/

theorem exitVal_v6_0 (c : Dev nD) (a6 : Buf (Elt F) ((c : Thread nD τ).loc main_v6_0)) (a7 : Buf (Elt F) ((c : Thread nD τ).loc main_v6_1)) :
    exitVal m c a6 a7 (Proc.devRef .tc main_v6_0) = a6 := by
  unfold exitVal
  rw [Function.update_of_ne (StableHlo.devRef_ne_of_ne (by decide)), Function.update_self]

theorem exitVal_v6_1 (c : Dev nD) (a6 : Buf (Elt F) ((c : Thread nD τ).loc main_v6_0)) (a7 : Buf (Elt F) ((c : Thread nD τ).loc main_v6_1)) :
    exitVal m c a6 a7 (Proc.devRef .tc main_v6_1) = a7 := by
  unfold exitVal
  rw [Function.update_self]

/-- A buffer that bypasses the region holds at the exit what it held at the entry. -/
theorem exitVal_rest (c : Dev nD) (a6 : Buf (Elt F) ((c : Thread nD τ).loc main_v6_0)) (a7 : Buf (Elt F) ((c : Thread nD τ).loc main_v6_1))
    (b : Ref sig .tc) (hb : b ∈ Pipeline.restRefs sig spec0) : exitVal m c a6 a7 (Proc.devRef .tc b) = V m c b := by
  have h6 : b ≠ main_v6_0 := fun e => (Finset.mem_sdiff.mp hb).2 (Finset.mem_image.mpr ⟨6, Finset.mem_univ _, e.symm⟩)
  have h7 : b ≠ main_v6_1 := fun e => (Finset.mem_sdiff.mp hb).2 (Finset.mem_image.mpr ⟨7, Finset.mem_univ _, e.symm⟩)
  unfold exitVal
  rw [Function.update_of_ne (StableHlo.devRef_ne_of_ne h7), Function.update_of_ne (StableHlo.devRef_ne_of_ne h6)]

/-- So the bypassing buffers, held at the exit memory, are held at their entry contents. -/
theorem rest_exit (c : Dev nD) (a6 : Buf (Elt F) ((c : Thread nD τ).loc main_v6_0)) (a7 : Buf (Elt F) ((c : Thread nD τ).loc main_v6_1)) :
    (Pipeline.unscopedRest (Ix := Unit) (Name := ℕ) (U := UR sig nD τ) (Lvl := ℕ) spec0 c (fun b => exitVal m c a6 a7 (Proc.devRef .tc b)) : sProp 𝕄)
      = Pipeline.unscopedRest spec0 c (V m c) := by
  unfold Pipeline.unscopedRest
  exact bigSep_congr fun b hb => by beta_reduce; rw [exitVal_rest m c a6 a7 b hb]

/-- One stretch of lines is its lines. -/
theorem flatten_one : ([hostOps1] : List (List (HloOp τ sig (Elt F)))).flatten = hostOps1 := by
  rw [List.flatten_cons, List.flatten_nil, List.append_nil]

/-- THE LINES AFTER THE REGION: from the region's exit — the boundary, the windows' arrays at contents `A` and at their
    shares, the bypassing buffers at their entry contents — the lines run within the two result arrays and the bypassing
    buffers, the five input arrays (the matrix of points at its two halves among them) set aside untouched, and hand back the
    arrays as they were and the bypassing buffers at what the lines leave from the exit memory. -/
theorem tail_lines (c : Dev nD) (dat : Dat τ (Elt F) Unit ℕ (UR sig nD τ) ℕ cfg0 c) (hq : ∀ w, dat.q w = qs w)
    (A : (w : Fin cfg0.W) → Buf (Elt F) ((cfg0.win w).arr.view.loc (c.tc : Thread nD τ))) (Q' : PUnit → sProp 𝕄) :
    iprop((iprop(dat.arrays A ∗ Pipeline.unscopedRestP (Ix := Unit) (Name := ℕ) (U := UR sig nD τ) (Lvl := ℕ) Pipeline.Prefetch.none spec0 c
              (fun b => StableHlo.after hostOps1 (exitVal m c (A 6) (A 7)) (Proc.devRef .tc b))) -∗ Q' ⟨⟩)
        ∗ boundary (c.tc : Thread nD τ) ∗ dat.arrays A
        ∗ Pipeline.unscopedRestP (Ix := Unit) (Name := ℕ) (U := UR sig nD τ) (Lvl := ℕ) Pipeline.Prefetch.none spec0 c (V m c))
      ⊢ wp frame (wpE (Pipeline.defs (fun p => (cfgs p).toPCfg) (defs₀ (F := F))) (Variants.lift Variants.none) (c.tc : Thread nD τ) none) Set.univ
          (Pipeline.chain [StableHlo.seq hostOps1]) Q' := by
  have hW : (StableHlo.held (c.tc : Thread nD τ) tailS (exitVal m c (A 6) (A 7)) : sProp 𝕄)
      = iprop((((c : Thread nD τ).loc main_v6_0) ↦{fullShare} A 6) ∗ (((c : Thread nD τ).loc main_v6_1) ↦{fullShare} A 7)
          ∗ Pipeline.unscopedRest (Ix := Unit) (Name := ℕ) (U := UR sig nD τ) (Lvl := ℕ) spec0 c (V m c)) := by
    rw [held_tailS, exitVal_v6_0, exitVal_v6_1, rest_exit]
  have hW' : (StableHlo.held (c.tc : Thread nD τ) tailS (StableHlo.after hostOps1 (exitVal m c (A 6) (A 7))) : sProp 𝕄)
      = iprop((((c : Thread nD τ).loc main_v6_0) ↦{fullShare} A 6) ∗ (((c : Thread nD τ).loc main_v6_1) ↦{fullShare} A 7)
          ∗ Pipeline.unscopedRest (Ix := Unit) (Name := ℕ) (U := UR sig nD τ) (Lvl := ℕ) spec0 c
              (fun b => StableHlo.after hostOps1 (exitVal m c (A 6) (A 7)) (Proc.devRef .tc b))) := by
    rw [held_tailS, after_v6_0, after_v6_1, exitVal_v6_0, exitVal_v6_1]
  rw [Pipeline.unscopedRestP_none, Pipeline.unscopedRestP_none, arrays_eq c dat hq]
  change _ ⊢ wp frame _ Set.univ (Pipeline.chain (([hostOps1] : List (List (HloOp τ sig (Elt F)))).map StableHlo.seq ++ [])) Q'
  iintro ⟨Hk, Hb, ⟨H0, H1, H2, H3, H4, H5, H6, H7⟩, HZ⟩
  iapply (Pipeline.wp_seqs_then (fun p => (cfgs p).toPCfg) defs₀ Variants.none c tailS [] [hostOps1]
    (fun ops hops op hop => by rw [List.mem_singleton] at hops; subst hops; exact tail_sub op hop)
    (fun ops hops op hop => by rw [List.mem_singleton] at hops; subst hops; exact (List.forall_iff_forall_mem.mp hostOps1_fresh) op hop)
    (exitVal m c (A 6) (A 7))) $$ [Hb H6 H7 HZ]
  · rw [hW]
    isplitl [Hb]; · iexact Hb
    isplitl [H6]; · iexact H6
    isplitl [H7]; · iexact H7
    iexact HZ
  iintro Hb
  rw [Pipeline.chain_nil, wp_pure, flatten_one, hW']
  imodintro
  icases Hb with ⟨-, H6, H7, HZ⟩
  iapply Hk
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HZ

/-! ## The run -/

theorem run_around (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qs w) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem (((spec0 w).arr.view.loc (c.tc : Thread nD τ))) = (dats 0 c).arrAt w cfg0.N)
      ∧ ∀ b ∈ Pipeline.restRefs sig spec0, r.2.mem ((c.tc : Thread nD τ).loc b)
          = StableHlo.after hostOps1 (exitVal m c ((dats 0 c).arrAt 6 cfg0.N) ((dats 0 c).arrAt 7 cfg0.N)) (Proc.devRef .tc b)) := by
  classical
  exact Pipeline.θ_run_region_pf_tail (fun p => (cfgs p).toPCfg) (fun p => (cfgs p).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => arrays_enter m c (dats 0 c) (hq c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after hostOps1 (exitVal m c ((dats 0 c).arrAt 6 cfg0.N) ((dats 0 c).arrAt 7 cfg0.N)) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_lines m c (dats 0 c) (hq c) (fun w => (dats 0 c).arrAt w cfg0.N) Q')
    (QY := fun c s => ∀ b ∈ Pipeline.restRefsP sig Pipeline.Prefetch.none spec0, s.mem ((c.tc : Thread nD τ).loc b)
      = StableHlo.after hostOps1 (exitVal m c ((dats 0 c).arrAt 6 cfg0.N) ((dats 0 c).arrAt 7 cfg0.N)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after hostOps1 (exitVal m c ((dats 0 c).arrAt 6 cfg0.N) ((dats 0 c).arrAt 7 cfg0.N)) (Proc.devRef .tc b)) s')
      isplitl [HU] <;> iassumption)
    (hQ := fun s h c => ⟨(h c).1, Pipeline.rest_of_restP Pipeline.Prefetch.none spec0 (fun k => k.elim0) c _ s (fun k => k.elim0) (h c).2.1 (h c).2.2⟩)

end Cert.KernelIdeal.Fr

end
-- ==== Proof.FrKernelIdeal.FrameClaim.lean ====
/-
  The frame consequence of the triplet-mining program's run: every weakly fair execution terminates with both
  argument arrays holding what they held at the launch. The matrix of points is the array of an input window
  (two of them), which the pipeline never writes, and the host lines before the region do not write it; the
  label vector is no window's array, so the region passes it by at what the host lines before it left, which
  is the launch contents, and the host lines after the region do not write it either.
-/
import proofs.«175446_j81810537055054_1_alg».proof.Proof.FrKernelIdeal.Body
import proofs.«175446_j81810537055054_1_alg».proof.Proof.FrKernelIdeal.Tail
import proofs.«175446_j81810537055054_1_alg».proof.Proof.FrKernelIdeal.Launch

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's run at this region's proof data: every window's array at what the pipeline's write-backs
    leave, every buffer the region passes by at what the host lines after the region compute from the memory at
    the region's exit. -/
theorem run_dats :
    θ_run defs (onTc (τ := τ) (main (F := F))) (s₀ m ρ) (fun r => ∀ c : Dev nD,
      (∀ w, r.2.mem (((spec0 w).arr.view.loc (c.tc : Thread nD τ))) = (dats m 0 c).arrAt w cfg0.N)
      ∧ ∀ b ∈ Pipeline.restRefs sig spec0, r.2.mem ((c.tc : Thread nD τ).loc b)
          = StableHlo.after hostOps1 (exitVal m c ((dats m 0 c).arrAt 6 cfg0.N) ((dats m 0 c).arrAt 7 cfg0.N)) (Proc.devRef .tc b)) :=
  run_around m ρ (dats m) (fun c => (body_obligation m c).loose) (q_eq m) (fun _ _ => rfl) (A_eq m) (hin m) (hout m)

/-- The label vector is no window's array and is not scoped: the region passes it by. -/
theorem arg1_rest : main_arg1 ∈ Pipeline.restRefs sig spec0 :=
  Pipeline.mem_restRefs_of main_arg1 rfl (by decide)

/-- After the whole program the matrix of points holds what it held: it is an input window's array. -/
theorem arg0_kept (c : Dev nD) : (dats m 0 c).arrAt 0 cfg0.N = m ((c : Thread nD τ).loc main_arg0) :=
  ((dats m 0 c).arrAt_in 0 rfl cfg0.N).trans ((A_eq m c 0).trans (V_main_arg0 m c))

/-- The host lines after the region leave the label vector at its launch contents, whatever the region wrote. -/
theorem arg1_kept (c : Dev nD) (a6 : Buf (Elt F) ((c : Thread nD τ).loc main_v6_0)) (a7 : Buf (Elt F) ((c : Thread nD τ).loc main_v6_1)) :
    StableHlo.after hostOps1 (exitVal m c a6 a7) (Proc.devRef .tc main_arg1) = m ((c : Thread nD τ).loc main_arg1) :=
  (after_tail_arg1 _).trans ((exitVal_rest m c a6 a7 main_arg1 arg1_rest).trans (V_main_arg1 m c))

/-- Every weakly fair execution of the program terminates with both argument arrays as they were. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 0).trans (arg0_kept m c), ((h c).2 main_arg1 arg1_rest).trans (arg1_kept m c _ _)⟩)
    (run_dats m ρ)

end Cert.KernelIdeal.Fr

end
-- ==== Proof.Shared.lean ====
/-
  The three host computations that the kernel's program and the reference carry out by the SAME operations,
  each named once so that neither side ever opens it: the vector of squared norms of the rows of the
  8192 x 256 matrix (the row sums of the squares), and, of two vectors hp, hn of 8192 extended reals,
  the mean over the rows of max (hp - hn + 0.3, 0) (the loss) and the mean over the rows of the indicator
  [hn > hp] (the precision). Stated over literal shapes; each takes as explicit hypotheses the shape
  relations its operations ask for, so that either program's own facts supply them.
-/
import Idealize.ShloMosaic.PureOps.Ideal
import Idealize.ShloMosaic.PureOps
import Idealize.ShloMosaic.Lib.ValueIdx

noncomputable section

namespace Cert.Shared

open Idealize.ShloMosaic

/-- The matrix of points, a vector over its rows, and the rank-zero shape, by literal extents. -/
abbrev SX : Shape := ⟨2, ![8192, 256]⟩
abbrev SV : Shape := ⟨1, ![8192]⟩
abbrev S0 : Shape := ⟨0, ![]⟩

/-- The squared norm of every row: the sum along a row of the squares of its entries, from zero. -/
def sqOf (X : FVec Ideal SX .f32) (h : SX.ReducesTo [1] SV) (h0 : 0 < S0.numel) : FVec Ideal SV .f32 :=
  Host.reduceAdd (F := Ideal) (mulf (F := Ideal) X X) (constant (F := Ideal) S0 .f32 0x00000000#32) h h0

/-- The loss: the sum over the rows of max (hp - hn + 0.3, 0), from zero, divided by 8192. -/
def lossOf (hp hn : FVec Ideal SV .f32) (hb : S0.BroadcastsInDim SV (![] : Fin 0 → Fin SV.rank))
    (hr : SV.ReducesTo [0] S0) (h0 : 0 < S0.numel) : FVec Ideal S0 .f32 :=
  Host.divf (F := Ideal)
    (Host.reduceAdd (F := Ideal)
      (maximumf (F := Ideal)
        (addf (F := Ideal) (subf (F := Ideal) hp hn) (broadcastInDim SV ![] hb (constant (F := Ideal) S0 .f32 0x3E99999A#32)))
        (broadcastInDim SV ![] hb (constant (F := Ideal) S0 .f32 0x00000000#32)))
      (constant (F := Ideal) S0 .f32 0x00000000#32) hr h0)
    (constant (F := Ideal) S0 .f32 0x46000000#32)

/-- The precision: the sum over the rows of the indicator of hn > hp, from zero, divided by 8192. -/
def precOf (hp hn : FVec Ideal SV .f32) (hr : SV.ReducesTo [0] S0) (h0 : 0 < S0.numel) : FVec Ideal S0 .f32 :=
  Host.divf (F := Ideal)
    (Host.reduceAdd (F := Ideal) (uitofp (F := Ideal) .f32 (cmpf (F := Ideal) .ogt hn hp))
      (constant (F := Ideal) S0 .f32 0x00000000#32) hr h0)
    (constant (F := Ideal) S0 .f32 0x46000000#32)

end Cert.Shared

end
-- ==== Proof.Spec.lean ====
/-
  What the kernel and the reference both compute, as functions of the two argument arrays, over the extended
  reals: for rows r and c of the 8192 x 256 matrix X the Euclidean distance clamped below,
      dist r c = sqrt (max (|x_r|^2 + |x_c|^2 - 2 <x_r, x_c>) eps),
  with the vector of squared norms a parameter (both programs compute it by the same host operations, so
  it is never opened); the hardest positive of row r, the largest distance to a row carrying the same label
  (the supremum over ALL columns of the distance where the labels agree and of bottom elsewhere), and the
  hardest negative, the smallest distance to a row carrying another label (the infimum of the distance where
  the labels differ and of top elsewhere).
-/
import Idealize.ShloMosaic.PureOps.Ideal
import Idealize.ShloMosaic.Lib.ValueIdx
import Mathlib.Order.CompleteLattice.Finset
import Mathlib.Data.Finset.Lattice.Fold

noncomputable section

namespace Cert.Spec

open Idealize.ShloMosaic Idealize.ShloMosaic.ValueIdx

/-- The matrix of points and the vector of labels (or of squared norms), by literal shape. -/
abbrev SX : Shape := ⟨2, ![8192, 256]⟩
abbrev SV : Shape := ⟨1, ![8192]⟩

/-- The factor 2 and the clamp 1e-12 as the f32 words both programs carry. -/
def two : EReal := Ideal.ofBits .f32 0x40000000#32
def eps : EReal := Ideal.ofBits .f32 0x2B8CBCCC#32

/-- The inner product of rows `r` and `c`. -/
def dot (X : SX.Idx → EReal) (r c : Fin 8192) : EReal := ∑ k : Fin 256, X (ix2 r k) * X (ix2 c k)

/-- The clamped Euclidean distance of rows `r` and `c`, given the squared norms `sq`. -/
def dist (X : SX.Idx → EReal) (sq : SV.Idx → EReal) (r c : Fin 8192) : EReal :=
  Ideal.sqrt (max (sq (ix1 r) + sq (ix1 c) - two * dot X r c) eps)

/-- The hardest positive of row `r`: the largest distance to a row of the same label. -/
def hardPos (X : SX.Idx → EReal) (sq : SV.Idx → EReal) (T : SV.Idx → BitVec 32) (r : Fin 8192) : EReal :=
  Finset.univ.sup fun c : Fin 8192 => if T (ix1 r) = T (ix1 c) then dist X sq r c else ⊥

/-- The hardest negative of row `r`: the smallest distance to a row of another label. -/
def hardNeg (X : SX.Idx → EReal) (sq : SV.Idx → EReal) (T : SV.Idx → BitVec 32) (r : Fin 8192) : EReal :=
  Finset.univ.inf fun c : Fin 8192 => if T (ix1 r) = T (ix1 c) then ⊤ else dist X sq r c

end Cert.Spec

end
-- ==== Proof.LibKeepdims.lean ====
/-
  The keepdims column forms of a row reduction, read at an index: a vector `[a]` cast to the column `[a, 1]`, and a
  column `[a, 1]` broadcast along the lanes to `[a, b]` (what `jnp.sum(x, axis=-1, keepdims=True)` followed by a
  broadcast against `[a, b]` lowers to in a kernel body). General in the extents and the element type.
-/
import Idealize.ShloMosaic.Lib.Pipeline.Value
import Idealize.ShloMosaic.Lib.ValueIdx

namespace Cert.LibKeepdims

open Idealize.ShloMosaic Idealize.ShloMosaic.ValueIdx

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KPay.lean ====
/-
  The kernel body's arithmetic at the extended reals, entry by entry, for one grid point: from a row block of 512
  points, a column block of 1024 points, their squared norms and their labels,
    * the block of clamped distances, `blockDist p q = sqrt (max (|x_p|^2 + |x_q|^2 - 2 <x_p, x_q>) eps)`;
    * the block's masked row maximum: at row `p` the supremum over the 1024 lanes `q` of the distance where the labels
      agree and of bottom elsewhere; and the masked row minimum: the infimum of top where they agree and of the
      distance elsewhere;
    * the running maximum and minimum combined with a block's (`max`, `min` entry by entry), and their reset values,
      bottom and top.
-/
import proofs.«175446_j81810537055054_1_alg».proof.Proof.Gen.KernelIdeal.Skeleton
import proofs.«175446_j81810537055054_1_alg».proof.Proof.Spec
import proofs.«175446_j81810537055054_1_alg».proof.Proof.LibKeepdims
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Idealize.ShloMosaic.ValueIdx Cert.KernelIdeal Cert.KernelIdeal.Gen Cert.LibKeepdims

/-! ## Words: the two infinities, and a select on an equality of labels -/

theorem ofBits_negInf : Ideal.ofBits .f32 0xFF800000#32 = (⊥ : EReal) := by simp [Ideal.ofBits, Ideal.ieee]
theorem ofBits_posInf : Ideal.ofBits .f32 0x7F800000#32 = (⊤ : EReal) := by simp [Ideal.ofBits, Ideal.ieee]

/-- A select on the bit of an integer equality is the `if` on the equality. -/
theorem select_cmpi_eq {α : Type} {w : ℕ} (a b : BitVec w) (u v : α) :
    Scalar.select (IntOp.cmpi .eq a b) u v = if a = b then u else v := by
  unfold Scalar.select IntOp.cmpi
  by_cases h : a = b
  · simp [h]
  · have hb : (a == b) = false := by simpa using h
    simp [h, hb]

/-! ## The product of a row block with a column block, entry by entry -/

theorem lhs_0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs_1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem rhs_0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs_1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- Entry `(p, q)` of the block product into a zero accumulator: the inner product of row `p` of the left block
    with row `q` of the right block. -/
theorem matmul_block_apply {φ₁ φ₂ : FTy} (l : FVec Ideal S512x256 φ₁) (r : FVec Ideal S1024x256 φ₂) (p : Fin 512) (q : Fin 1024) :
    matmul dot_S512x256_S1024x256_S512x1024_1_1_0_0_n_n none l r (constant (F := Ideal) S512x1024 .f32 0x00000000#32) (ix2 p q)
      = ∑ k : Fin 256, l (ix2 p k) * r (ix2 q k) := by
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p q) ((contrEquiv1 dot_S512x256_S1024x256_S512x1024_1_1_0_0_n_n 256 rfl rfl).symm k) = ix2 p k := funext fun a => Fin.ext (by
    match a with
    | ⟨0, _⟩ => exact lhs_0 _ _
    | ⟨1, _⟩ => exact (lhs_1 _ _).trans hk)
  have er : dot_S512x256_S1024x256_S512x1024_1_1_0_0_n_n.rhsIdx (ix2 p q) ((contrEquiv1 dot_S512x256_S1024x256_S512x1024_1_1_0_0_n_n 256 rfl rfl).symm k) = ix2 q k := funext fun a => Fin.ext (by
    match a with
    | ⟨0, _⟩ => exact rhs_0 _ _
    | ⟨1, _⟩ => exact (rhs_1 _ _).trans hk)
  rw [el, er]

/-! ## The block's distances and label mask, entry by entry -/

/-- The clamped distance between row `p` of the row block and row `q` of the column block, from the two blocks and
    their squared norms. -/
def blockDist (x0 : Vec Ideal S512x256 .f32) (x1 : Vec Ideal S1024x256 .f32) (x2 : Vec Ideal S512x1 .f32)
    (x3 : Vec Ideal S1x1024 .f32) (p : Fin 512) (q : Fin 1024) : EReal :=
  Ideal.sqrt (max (x2 (ix2 p 0) + x3 (ix2 0 q) - Cert.Spec.two * ∑ k : Fin 256, x0 (ix2 p k) * x1 (ix2 q k)) Cert.Spec.eps)

theorem pay5_apply (x0 : Vec Ideal S512x256 .f32) (x1 : Vec Ideal S1024x256 .f32) (x2 : Vec Ideal S512x1 .f32)
    (x3 : Vec Ideal S1x1024 .f32) (p : Fin 512) (q : Fin 1024) :
    k0_pay5 (F := Ideal) x0 x1 x2 x3 (ix2 p q) = blockDist x0 x1 x2 x3 p q := by
  unfold k0_pay5 blockDist
  show Ideal.sqrt (max ((broadcastTo S512x1024 (shapeCast S512x1 x2 shapeCasts_S512x1_S512x1) broadcasts_S512x1_S512x1024 (ix2 p q)
        + broadcastTo S512x1024 (shapeCast S1x1024 x3 shapeCasts_S1x1024_S1x1024) broadcasts_S1x1024_S512x1024 (ix2 p q))
      - Ideal.ofBits .f32 0x40000000#32
        * matmul dot_S512x256_S1024x256_S512x1024_1_1_0_0_n_n none (truncf .bf16 x0 bitsLt_bf16_f32) (truncf .bf16 x1 bitsLt_bf16_f32)
            (constant (F := Ideal) S512x1024 .f32 0x00000000#32) (ix2 p q))
      (Ideal.ofBits .f32 0x2B8CBCCC#32)) = _
  rw [shapeCast_self, shapeCast_self, broadcastTo_a1_ab_apply, broadcastTo_1b_ab_apply, matmul_block_apply]
  rfl

theorem pay6_apply (x4 : Vec Ideal S512x1 .i32) (x5 : Vec Ideal S1x1024 .i32) (p : Fin 512) (q : Fin 1024) :
    k0_pay6 (F := Ideal) x4 x5 (ix2 p q) = IntOp.cmpi .eq (x4 (ix2 p 0)) (x5 (ix2 0 q)) := by
  unfold k0_pay6
  show IntOp.cmpi .eq (broadcastTo S512x1024 (shapeCast S512x1 x4 shapeCasts_S512x1_S512x1) broadcasts_S512x1_S512x1024 (ix2 p q))
      (broadcastTo S512x1024 (shapeCast S1x1024 x5 shapeCasts_S1x1024_S1x1024) broadcasts_S1x1024_S512x1024 (ix2 p q)) = _
  rw [shapeCast_self, shapeCast_self, broadcastTo_a1_ab_apply, broadcastTo_1b_ab_apply]

/-! ## A lane reduction over one axis -/

/-- A `<minimumf>` reduction over one axis, read at the ideal values: the fold of `min` from the accumulator's value
    over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over row `p` of the block, the lane coordinate `q` sits at `(p, q)`. -/
theorem lift_row (p : Fin 512) (q : Fin 1024) : reduces_S512x1024_S512.lift (ix1 p) q = ix2 p q :=
  funext fun a => Fin.ext (by
    match a with
    | ⟨0, _⟩ => rfl
    | ⟨1, _⟩ => rfl)

/-- A fold of `max` from bottom is the supremum, a fold of `min` from top the infimum. -/
theorem fold_max_bot {ι : Type} (s : Finset ι) (f : ι → EReal) : s.fold max ⊥ f = s.sup f := rfl
theorem fold_min_top {ι : Type} (s : Finset ι) (f : ι → EReal) : s.fold min ⊤ f = s.inf f := rfl

/-- A row's lane maximum from `-∞` is the supremum over the row's lanes … -/
theorem rowMax_apply (src : FVec Ideal S512x1024 .f32) (hφ : FKind.Formats .f32)
    (hacc : (0xFF800000#32 : BitVec FTy.f32.bits) = FKind.maximumf.neutral .f32 hφ) (p : Fin 512) :
    multiReduction .maximumf [1] S512 src 0xFF800000#32 reduces_S512x1024_S512 hφ hacc (ix1 p)
      = Finset.univ.sup fun q : Fin 1024 => src (ix2 p q) := by
  refine (Ideal.multiReduction_maximumf_single src 0xFF800000#32 reduces_S512x1024_S512 hφ hacc (ix1 p)).trans ?_
  show (Finset.univ : Finset (Fin 1024)).fold max (Ideal.ofBits .f32 0xFF800000#32)
      (fun q : Fin 1024 => src (reduces_S512x1024_S512.lift (ix1 p) q)) = _
  rw [ofBits_negInf, fold_max_bot]
  exact Finset.sup_congr rfl fun q _ => congrArg src (lift_row p q)

/-- … and its lane minimum from `+∞` the infimum. -/
theorem rowMin_apply (src : FVec Ideal S512x1024 .f32) (hφ : FKind.Formats .f32)
    (hacc : (0x7F800000#32 : BitVec FTy.f32.bits) = FKind.minimumf.neutral .f32 hφ) (p : Fin 512) :
    multiReduction .minimumf [1] S512 src 0x7F800000#32 reduces_S512x1024_S512 hφ hacc (ix1 p)
      = Finset.univ.inf fun q : Fin 1024 => src (ix2 p q) := by
  refine (multiReduction_minimumf_single src 0x7F800000#32 reduces_S512x1024_S512 hφ hacc (ix1 p)).trans ?_
  show (Finset.univ : Finset (Fin 1024)).fold min (Ideal.ofBits .f32 0x7F800000#32)
      (fun q : Fin 1024 => src (reduces_S512x1024_S512.lift (ix1 p) q)) = _
  rw [ofBits_posInf, fold_min_top]
  exact Finset.inf_congr rfl fun q _ => congrArg src (lift_row p q)

/-! ## The block's masked row maximum and minimum -/

theorem pay7_apply (x0 : Vec Ideal S512x256 .f32) (x1 : Vec Ideal S1024x256 .f32) (x2 : Vec Ideal S512x1 .f32)
    (x3 : Vec Ideal S1x1024 .f32) (x4 : Vec Ideal S512x1 .i32) (x5 : Vec Ideal S1x1024 .i32) (p : Fin 512) :
    k0_pay7 (F := Ideal) x0 x1 x2 x3 x4 x5 (ix2 p 0)
      = Finset.univ.sup fun q : Fin 1024 => if x4 (ix2 p 0) = x5 (ix2 0 q) then blockDist x0 x1 x2 x3 p q else ⊥ := by
  unfold k0_pay7
  show shapeCast S512x1 (multiReduction .maximumf [1] S512
      (select (k0_pay6 (F := Ideal) x4 x5) (k0_pay5 (F := Ideal) x0 x1 x2 x3) (broadcast S512x1024 (Ideal.ofBits .f32 0xFF800000#32)))
      0xFF800000#32 reduces_S512x1024_S512 (.inl rfl) rfl) shapeCasts_S512_S512x1 (ix2 p 0) = _
  rw [shapeCast_a_a1_apply]
  refine (rowMax_apply _ _ _ p).trans (Finset.sup_congr rfl fun q _ => ?_)
  show Scalar.select (k0_pay6 (F := Ideal) x4 x5 (ix2 p q))
      (k0_pay5 (F := Ideal) x0 x1 x2 x3 (ix2 p q)) (Ideal.ofBits .f32 0xFF800000#32) = _
  rw [pay6_apply, pay5_apply, select_cmpi_eq, ofBits_negInf]

theorem pay8_apply (x0 : Vec Ideal S512x256 .f32) (x1 : Vec Ideal S1024x256 .f32) (x2 : Vec Ideal S512x1 .f32)
    (x3 : Vec Ideal S1x1024 .f32) (x4 : Vec Ideal S512x1 .i32) (x5 : Vec Ideal S1x1024 .i32) (p : Fin 512) :
    k0_pay8 (F := Ideal) x0 x1 x2 x3 x4 x5 (ix2 p 0)
      = Finset.univ.inf fun q : Fin 1024 => if x4 (ix2 p 0) = x5 (ix2 0 q) then ⊤ else blockDist x0 x1 x2 x3 p q := by
  unfold k0_pay8
  show shapeCast S512x1 (multiReduction .minimumf [1] S512
      (select (k0_pay6 (F := Ideal) x4 x5) (broadcast S512x1024 (Ideal.ofBits .f32 0x7F800000#32)) (k0_pay5 (F := Ideal) x0 x1 x2 x3))
      0x7F800000#32 reduces_S512x1024_S512 (.inl rfl) rfl) shapeCasts_S512_S512x1 (ix2 p 0) = _
  rw [shapeCast_a_a1_apply]
  refine (rowMin_apply _ _ _ p).trans (Finset.inf_congr rfl fun q _ => ?_)
  show Scalar.select (k0_pay6 (F := Ideal) x4 x5 (ix2 p q))
      (Ideal.ofBits .f32 0x7F800000#32) (k0_pay5 (F := Ideal) x0 x1 x2 x3 (ix2 p q)) = _
  rw [pay6_apply, pay5_apply, select_cmpi_eq, ofBits_posInf]

/-! ## The running maximum and minimum, and their reset values -/

theorem pay1_apply (v31 : FVec Ideal S512x1 .f32) (v36 : Vec Ideal S512x1 .f32) (j : S512x1.Idx) :
    k0_pay1 (F := Ideal) v31 v36 j = max (v36 j) (v31 j) := by
  unfold k0_pay1
  show shapeCast S512x1 (maximumf v36 v31) shapeCasts_S512x1_S512x1 j = _
  rw [shapeCast_self]
  rfl

theorem pay2_apply (v35 : FVec Ideal S512x1 .f32) (v41 : Vec Ideal S512x1 .f32) (j : S512x1.Idx) :
    k0_pay2 (F := Ideal) v35 v41 j = min (v41 j) (v35 j) := by
  unfold k0_pay2
  show shapeCast S512x1 (minimumf v41 v35) shapeCasts_S512x1_S512x1 j = _
  rw [shapeCast_self]
  rfl

theorem pay3_eq : (k0_pay3 (F := Ideal)) = fun _ => (⊥ : EReal) := by
  unfold k0_pay3
  show shapeCast S512x1 (broadcast S512x1 (Ideal.ofBits .f32 0xFF800000#32)) shapeCasts_S512x1_S512x1 = _
  rw [shapeCast_self, ofBits_negInf]
  rfl

theorem pay4_eq : (k0_pay4 (F := Ideal)) = fun _ => (⊤ : EReal) := by
  unfold k0_pay4
  show shapeCast S512x1 (broadcast S512x1 (Ideal.ofBits .f32 0x7F800000#32)) shapeCasts_S512x1_S512x1 = _
  rw [shapeCast_self, ofBits_posInf]
  rfl

end Cert.KernelIdeal.KPay

end
-- ==== Proof.KBlocks.lean ====
/-
  The kernel's input blocks read against the arrays. Before the tiled region the host lines have written the
  vector of squared norms, cast once to a column and once to a row, and the label vector cast likewise; the
  region's grid point t is row block t / 8 (512 rows) and column block t % 8 (1024 rows). Entry by entry, the
  six blocks a grid point sees are: rows 512 (t / 8) + p of the matrix, rows 1024 (t % 8) + q of the matrix, and
  the squared norms and labels of those rows. Hence the body's masked row maximum (minimum) over one block is
  the supremum (infimum), over the 1024 columns of that block, of the specification's clamped distance masked
  by equality (inequality) of the labels.
-/
import proofs.«175446_j81810537055054_1_alg».proof.Proof.FrKernelIdeal.Frame
import proofs.«175446_j81810537055054_1_alg».proof.Proof.Shared
import proofs.«175446_j81810537055054_1_alg».proof.Proof.Spec
import proofs.«175446_j81810537055054_1_alg».proof.Proof.LibKeepdims
import proofs.«175446_j81810537055054_1_alg».proof.Proof.KPay
import Idealize.ShloMosaic.Lib.ValueLayout

noncomputable section

namespace Cert.KernelIdeal.KBlocks

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ) (c : Dev nD)

/-- The matrix of points, the labels, and the squared norms of the rows, as the launch memory holds them. -/
abbrev Xa : FVec Ideal S8192x256 .f32 := m ((c.tc : Thread nD τ).loc main_arg0)
abbrev Ta : IVec S8192 32 := m ((c.tc : Thread nD τ).loc main_arg1)
abbrev sqa : FVec Ideal S8192 .f32 := Cert.Shared.sqOf (Xa m c) reducesTo_S8192x256_S8192_d1 h_S_

/-- The row of the matrix that row p of the row block at grid point t is, and likewise for the column block. -/
def rowOf (t : Fin cfg0.N) (p : Fin 512) : Fin 8192 :=
  ⟨512 * (t.val / 8) + p.val, by have := t.isLt; have : cfg0.N = 128 := N_0; have := p.isLt; omega⟩
def colOf (t : Fin cfg0.N) (q : Fin 1024) : Fin 8192 :=
  ⟨1024 * (t.val % 8) + q.val, by have := q.isLt; omega⟩

/-! ## What the host lines before the region wrote -/

/-- The column of squared norms the region finds is the vector of squared norms cast to a column. -/
theorem V_main_v2_eq : V m c main_v2 = shapeCast S8192x1 (sqa m c) shapeCasts_S8192_S8192x1 := by
  show StableHlo.after (List.flatten [hostOps0]) (fun b => m (c, b)) (Proc.devRef .tc main_v2) = _
  simp only [hostOps0, List.flatten_cons, List.flatten_nil, List.append_nil]
  after_results
  rfl

/-- Its entry of row r is the squared norm of row r. -/
theorem V_main_v2_apply (r : Fin 8192) : V m c main_v2 (ix2 r (0 : Fin 1)) = sqa m c (ix1 r) := by
  rw [V_main_v2_eq]
  exact Cert.LibKeepdims.shapeCast_a_a1_apply _ _ r 0

/-- The row of squared norms the region finds is the vector of squared norms cast to a row. -/
theorem V_main_v3_eq : V m c main_v3 = shapeCast S1x8192 (sqa m c) shapeCasts_S8192_S1x8192 := by
  show StableHlo.after (List.flatten [hostOps0]) (fun b => m (c, b)) (Proc.devRef .tc main_v3) = _
  simp only [hostOps0, List.flatten_cons, List.flatten_nil, List.append_nil]
  after_results
  rfl

/-- Its entry of column r is the squared norm of row r. -/
theorem V_main_v3_apply (r : Fin 8192) : V m c main_v3 (ix2 (0 : Fin 1) r) = sqa m c (ix1 r) := by
  rw [V_main_v3_eq]
  exact shapeCast_a_1a_apply _ _ 0 r

/-- The column of labels the region finds is the label vector cast to a column. -/
theorem V_main_v4_eq : V m c main_v4 = shapeCast S8192x1 (Ta m c) shapeCasts_S8192_S8192x1 := by
  show StableHlo.after (List.flatten [hostOps0]) (fun b => m (c, b)) (Proc.devRef .tc main_v4) = _
  simp only [hostOps0, List.flatten_cons, List.flatten_nil, List.append_nil]
  after_results
  rfl

/-- Its entry of row r is the label of row r. -/
theorem V_main_v4_apply (r : Fin 8192) : V m c main_v4 (ix2 r (0 : Fin 1)) = Ta m c (ix1 r) := by
  rw [V_main_v4_eq]
  exact Cert.LibKeepdims.shapeCast_a_a1_apply _ _ r 0

/-- The row of labels the region finds is the label vector cast to a row. -/
theorem V_main_v5_eq : V m c main_v5 = shapeCast S1x8192 (Ta m c) shapeCasts_S8192_S1x8192 := by
  show StableHlo.after (List.flatten [hostOps0]) (fun b => m (c, b)) (Proc.devRef .tc main_v5) = _
  simp only [hostOps0, List.flatten_cons, List.flatten_nil, List.append_nil]
  after_results
  rfl

/-- Its entry of column r is the label of row r. -/
theorem V_main_v5_apply (r : Fin 8192) : V m c main_v5 (ix2 (0 : Fin 1) r) = Ta m c (ix1 r) := by
  rw [V_main_v5_eq]
  exact shapeCast_a_1a_apply _ _ 0 r

/-! ## The index maps over the grid: point t is row block t / 8 and column block t % 8 -/

theorem idx0_0 : ∀ t : Fin cfg0.N, win0_0.index t (0 : Fin 2) = t.val / 8 := (by decide +kernel : ∀ t : Fin grid0.N, _)
theorem idx0_1 : ∀ t : Fin cfg0.N, win0_0.index t (1 : Fin 2) = 0 := (by decide +kernel : ∀ t : Fin grid0.N, _)
theorem idx1_0 : ∀ t : Fin cfg0.N, win0_1.index t (0 : Fin 2) = t.val % 8 := (by decide +kernel : ∀ t : Fin grid0.N, _)
theorem idx1_1 : ∀ t : Fin cfg0.N, win0_1.index t (1 : Fin 2) = 0 := (by decide +kernel : ∀ t : Fin grid0.N, _)
theorem idx2_0 : ∀ t : Fin cfg0.N, win0_2.index t (0 : Fin 2) = t.val / 8 := (by decide +kernel : ∀ t : Fin grid0.N, _)
theorem idx2_1 : ∀ t : Fin cfg0.N, win0_2.index t (1 : Fin 2) = 0 := (by decide +kernel : ∀ t : Fin grid0.N, _)
theorem idx3_0 : ∀ t : Fin cfg0.N, win0_3.index t (0 : Fin 2) = 0 := (by decide +kernel : ∀ t : Fin grid0.N, _)
theorem idx3_1 : ∀ t : Fin cfg0.N, win0_3.index t (1 : Fin 2) = t.val % 8 := (by decide +kernel : ∀ t : Fin grid0.N, _)
theorem idx4_0 : ∀ t : Fin cfg0.N, win0_4.index t (0 : Fin 2) = t.val / 8 := (by decide +kernel : ∀ t : Fin grid0.N, _)
theorem idx4_1 : ∀ t : Fin cfg0.N, win0_4.index t (1 : Fin 2) = 0 := (by decide +kernel : ∀ t : Fin grid0.N, _)
theorem idx5_0 : ∀ t : Fin cfg0.N, win0_5.index t (0 : Fin 2) = 0 := (by decide +kernel : ∀ t : Fin grid0.N, _)
theorem idx5_1 : ∀ t : Fin cfg0.N, win0_5.index t (1 : Fin 2) = t.val % 8 := (by decide +kernel : ∀ t : Fin grid0.N, _)

/-! ## The six input blocks at a grid point -/

abbrev b0 (t : Fin cfg0.N) : Vec Ideal S512x256 .f32 := iblk m c 0 t
abbrev b1 (t : Fin cfg0.N) : Vec Ideal S1024x256 .f32 := iblk m c 1 t
abbrev b2 (t : Fin cfg0.N) : Vec Ideal S512x1 .f32 := iblk m c 2 t
abbrev b3 (t : Fin cfg0.N) : Vec Ideal S1x1024 .f32 := iblk m c 3 t
abbrev b4 (t : Fin cfg0.N) : Vec Ideal S512x1 .i32 := iblk m c 4 t
abbrev b5 (t : Fin cfg0.N) : Vec Ideal S1x1024 .i32 := iblk m c 5 t

/-- Row p of the row block at point t is row rowOf t p of the matrix. -/
theorem b0_apply (t : Fin cfg0.N) (p : Fin 512) (k : Fin 256) : b0 m c t (ix2 p k) = Xa m c (ix2 (rowOf t p) k) := by
  show V m c main_arg0 (((cfg0.win 0).blk t).view.emb (ix2 p k)) = _
  rw [V_main_arg0]
  refine congrArg (Xa m c) (funext fun a => Fin.ext ?_)
  match a with
  | ⟨0, _⟩ =>
    show win0_0.index t (0 : Fin 2) * 512 + 1 * p.val = 512 * (t.val / 8) + p.val
    rw [idx0_0 t]; omega
  | ⟨1, _⟩ =>
    show win0_0.index t (1 : Fin 2) * 256 + 1 * k.val = k.val
    rw [idx0_1 t]; omega

/-- Row q of the column block at point t is row colOf t q of the matrix. -/
theorem b1_apply (t : Fin cfg0.N) (q : Fin 1024) (k : Fin 256) : b1 m c t (ix2 q k) = Xa m c (ix2 (colOf t q) k) := by
  show V m c main_arg0 (((cfg0.win 1).blk t).view.emb (ix2 q k)) = _
  rw [V_main_arg0]
  refine congrArg (Xa m c) (funext fun a => Fin.ext ?_)
  match a with
  | ⟨0, _⟩ =>
    show win0_1.index t (0 : Fin 2) * 1024 + 1 * q.val = 1024 * (t.val % 8) + q.val
    rw [idx1_0 t]; omega
  | ⟨1, _⟩ =>
    show win0_1.index t (1 : Fin 2) * 256 + 1 * k.val = k.val
    rw [idx1_1 t]; omega

/-- Entry p of the row block's column of squared norms is the squared norm of row rowOf t p. -/
theorem b2_apply (t : Fin cfg0.N) (p : Fin 512) : b2 m c t (ix2 p (0 : Fin 1)) = sqa m c (ix1 (rowOf t p)) := by
  show V m c main_v2 (((cfg0.win 2).blk t).view.emb (ix2 p (0 : Fin 1))) = _
  rw [← V_main_v2_apply]
  refine congrArg (V m c main_v2) (funext fun a => Fin.ext ?_)
  match a with
  | ⟨0, _⟩ =>
    show win0_2.index t (0 : Fin 2) * 512 + 1 * p.val = 512 * (t.val / 8) + p.val
    rw [idx2_0 t]; omega
  | ⟨1, _⟩ =>
    show win0_2.index t (1 : Fin 2) * 1 + 1 * 0 = 0
    rw [idx2_1 t]

/-- Entry q of the column block's row of squared norms is the squared norm of row colOf t q. -/
theorem b3_apply (t : Fin cfg0.N) (q : Fin 1024) : b3 m c t (ix2 (0 : Fin 1) q) = sqa m c (ix1 (colOf t q)) := by
  show V m c main_v3 (((cfg0.win 3).blk t).view.emb (ix2 (0 : Fin 1) q)) = _
  rw [← V_main_v3_apply]
  refine congrArg (V m c main_v3) (funext fun a => Fin.ext ?_)
  match a with
  | ⟨0, _⟩ =>
    show win0_3.index t (0 : Fin 2) * 1 + 1 * 0 = 0
    rw [idx3_0 t]
  | ⟨1, _⟩ =>
    show win0_3.index t (1 : Fin 2) * 1024 + 1 * q.val = 1024 * (t.val % 8) + q.val
    rw [idx3_1 t]; omega

/-- Entry p of the row block's column of labels is the label of row rowOf t p. -/
theorem b4_apply (t : Fin cfg0.N) (p : Fin 512) : b4 m c t (ix2 p (0 : Fin 1)) = Ta m c (ix1 (rowOf t p)) := by
  show V m c main_v4 (((cfg0.win 4).blk t).view.emb (ix2 p (0 : Fin 1))) = _
  rw [← V_main_v4_apply]
  refine congrArg (V m c main_v4) (funext fun a => Fin.ext ?_)
  match a with
  | ⟨0, _⟩ =>
    show win0_4.index t (0 : Fin 2) * 512 + 1 * p.val = 512 * (t.val / 8) + p.val
    rw [idx4_0 t]; omega
  | ⟨1, _⟩ =>
    show win0_4.index t (1 : Fin 2) * 1 + 1 * 0 = 0
    rw [idx4_1 t]

/-- Entry q of the column block's row of labels is the label of row colOf t q. -/
theorem b5_apply (t : Fin cfg0.N) (q : Fin 1024) : b5 m c t (ix2 (0 : Fin 1) q) = Ta m c (ix1 (colOf t q)) := by
  show V m c main_v5 (((cfg0.win 5).blk t).view.emb (ix2 (0 : Fin 1) q)) = _
  rw [← V_main_v5_apply]
  refine congrArg (V m c main_v5) (funext fun a => Fin.ext ?_)
  match a with
  | ⟨0, _⟩ =>
    show win0_5.index t (0 : Fin 2) * 1 + 1 * 0 = 0
    rw [idx5_0 t]
  | ⟨1, _⟩ =>
    show win0_5.index t (1 : Fin 2) * 1024 + 1 * q.val = 1024 * (t.val % 8) + q.val
    rw [idx5_1 t]; omega

/-! ## The block's distances are the matrix's -/

/-- The block's clamped distance of its rows p and q is the distance of rows rowOf t p and colOf t q of the matrix. -/
theorem blockDist_eq (t : Fin cfg0.N) (p : Fin 512) (q : Fin 1024) :
    Cert.KernelIdeal.KPay.blockDist (b0 m c t) (b1 m c t) (b2 m c t) (b3 m c t) p q
      = Cert.Spec.dist (Xa m c) (sqa m c) (rowOf t p) (colOf t q) := by
  unfold Cert.KernelIdeal.KPay.blockDist Cert.Spec.dist Cert.Spec.dot
  rw [b2_apply, b3_apply]
  congr 4
  exact Finset.sum_congr rfl fun k _ => by rw [b0_apply, b1_apply]

/-- The block's masked row maximum at row p: the supremum over the block's 1024 columns of the matrix's distance where
    the labels agree and of bottom elsewhere. -/
theorem localMax_eq (t : Fin cfg0.N) (p : Fin 512) :
    k0_pay7 (F := Ideal) (b0 m c t) (b1 m c t) (b2 m c t) (b3 m c t) (b4 m c t) (b5 m c t) (ix2 p (0 : Fin 1))
      = Finset.univ.sup fun q : Fin 1024 => if Ta m c (ix1 (rowOf t p)) = Ta m c (ix1 (colOf t q))
          then Cert.Spec.dist (Xa m c) (sqa m c) (rowOf t p) (colOf t q) else ⊥ := by
  rw [Cert.KernelIdeal.KPay.pay7_apply]
  refine congrArg _ (funext fun q => ?_)
  rw [b4_apply, b5_apply, blockDist_eq]

/-- The block's masked row minimum at row p: the infimum of top where the labels agree and of the matrix's distance
    elsewhere. -/
theorem localMin_eq (t : Fin cfg0.N) (p : Fin 512) :
    k0_pay8 (F := Ideal) (b0 m c t) (b1 m c t) (b2 m c t) (b3 m c t) (b4 m c t) (b5 m c t) (ix2 p (0 : Fin 1))
      = Finset.univ.inf fun q : Fin 1024 => if Ta m c (ix1 (rowOf t p)) = Ta m c (ix1 (colOf t q))
          then ⊤ else Cert.Spec.dist (Xa m c) (sqa m c) (rowOf t p) (colOf t q) := by
  rw [Cert.KernelIdeal.KPay.pay8_apply]
  refine congrArg _ (funext fun q => ?_)
  rw [b4_apply, b5_apply, blockDist_eq]

end Cert.KernelIdeal.KBlocks

end
-- ==== Proof.KPieces.lean ====
/-
  What each case of the body leaves, as the payloads of its stores. A row block's eight grid points are of three
  kinds. At the first column block the two scratch operands are reset (the running maximum to the bottom word, the
  running minimum to the top word) and then each is combined with the block's masked row maximum, resp. minimum.
  At a middle column block each scratch operand is combined with the block's masked row maximum, resp. minimum,
  starting from what the point before left. At the last column block the same combination is stored into the
  scratch operands and then copied to the two output buffers, so the output buffers and the scratch operands end
  holding the same vectors. Each statement reads the pieces a run found back as one payload of the input blocks:
  every store covers its whole buffer through the rectangle at zero offsets, so the last store's payload is what
  the buffer holds, and every load through that rectangle reads the contents the buffer held.
-/
import proofs.«175446_j81810537055054_1_alg».proof.Proof.FrKernelIdeal.Frame
import Idealize.ShloMosaic.Lib.Pipeline.Value
import Idealize.ShloMosaic.Lib.Tactic

set_option maxRecDepth 16384

noncomputable section

namespace Cert.KernelIdeal.KPieces

open Idealize.ShloMosaic Idealize.ShloMosaic.TcCoe Idealize.ShloMosaic.Tactic Idealize.SL.Sem
open Cert.KernelIdeal Cert.KernelIdeal.Gen Cert.KernelIdeal.Fr

variable {F : FTy → Type} [FloatOps F]

/-- The zero offsets of a rank-two rectangle, however they are spelt. -/
theorem hz : (![0, 0] : Fin 2 → Nat) = fun _ => 0 := funext fun a => by fin_cases a <;> rfl

/-! ## The first column block of a row block -/

/-- The running maximum after the first column block: the reset value combined with the block's masked row maximum. -/
theorem sout_A_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay7 x0 x1 x2 x3 x4 x5) (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-- The running minimum after the first column block: the reset value combined with the block's masked row minimum. -/
theorem sout_A_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay8 x0 x1 x2 x3 x4 x5) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-! ## A middle column block -/

/-- The running maximum after a middle column block: what the point before left, combined with the block's masked row maximum. -/
theorem sout_B_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-- The running minimum after a middle column block: what the point before left, combined with the block's masked row minimum. -/
theorem sout_B_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-! ## The last column block of a row block -/

/-- The running maximum after the last column block. -/
theorem sout_C_0 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-- The running minimum after the last column block. -/
theorem sout_C_1 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-- The first output buffer after the last column block: the copy stores what was just stored into the running maximum. -/
theorem out_C_6 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay7 x0 x1 x2 x3 x4 x5) xs0 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

/-- The second output buffer after the last column block: the copy stores what was just stored into the running minimum. -/
theorem out_C_7 (c : Dev nD) (i : grid0.Coords) (arg2 : Memref sig .tc .vmem S512x256 .f32) (harg2 : arg2.IsWhole) (arg3 : Memref sig .tc .vmem S1024x256 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .f32) (x1 : Vec F S1024x256 .f32) (x2 : Vec F S512x1 .f32) (x3 : Vec F S1x1024 .f32) (x4 : Vec F S512x1 .i32) (x5 : Vec F S1x1024 .i32) (xs0 xs1 : Vec F S512x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 x0 x1 x2 x3 x4 x5) xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x256) hz, View.ld_unit_zero (S := S1024x256) hz, View.ld_unit_zero (S := S512x1) hz, View.ld_unit_zero (S := S1x1024) hz, View.readCov_unit_zero (S := S512x1) _ hz]

end Cert.KernelIdeal.KPieces

end
-- ==== Proof.LibBlockSup.lean ====
/-
  Suprema and infima over an initial segment of `Fin N` that grows by one block: for a function `f` on `Fin N`
  with values in a join-semilattice with a least element, the supremum of `f` over the indices below `b * (j + 1)`
  is the join of its supremum over the indices below `b * j` and the supremum of block `j` (the `b` indices
  `b * j + q`, `q < b`); over the indices below `b * 0` it is the least element; over the indices below any bound
  that is at least `N` it is the supremum over all of `Fin N`. Dually for infima in a meet-semilattice with a
  greatest element. These are the three steps of a running maximum (minimum) kept across the column blocks of a
  tiled reduction: start from the neutral element, fold one block in at a time, end with the reduction over the
  whole axis. General in the lattice, the extent and the block size.
-/
import Mathlib.Data.Finset.Lattice.Fold
import Mathlib.Data.Fintype.Basic
import Mathlib.Data.Fin.Basic

namespace Cert.LibBlockSup

variable {α : Type*}

/-- The element of `Fin N` at offset `q` of block `j` when the blocks have `b` elements and `j + 1` blocks fit. -/
def blockIdx {N : ℕ} (b j : ℕ) (hN : b * (j + 1) ≤ N) (q : Fin b) : Fin N :=
  ⟨b * j + q.val, by have := q.isLt; have hs : b * (j + 1) = b * j + b := Nat.mul_succ b j; omega⟩

@[simp] theorem blockIdx_val {N : ℕ} (b j : ℕ) (hN : b * (j + 1) ≤ N) (q : Fin b) :
    (blockIdx b j hN q).val = b * j + q.val := rfl

section Sup
variable [SemilatticeSup α] [OrderBot α]

/-- The supremum over the indices below `b * (j + 1)` is the join of the supremum over the indices below `b * j`
    and the supremum of block `j`. -/
theorem sup_filter_lt_succ {N : ℕ} (b j : ℕ) (hN : b * (j + 1) ≤ N) (f : Fin N → α) :
    (Finset.univ.filter fun c : Fin N => c.val < b * (j + 1)).sup f
      = (Finset.univ.filter fun c : Fin N => c.val < b * j).sup f ⊔ Finset.univ.sup fun q : Fin b => f (blockIdx b j hN q) := by
  have hs : b * (j + 1) = b * j + b := Nat.mul_succ b j
  apply le_antisymm
  · refine Finset.sup_le fun c hc => ?_
    have hc' : c.val < b * (j + 1) := (Finset.mem_filter.mp hc).2
    by_cases h : c.val < b * j
    · exact le_sup_of_le_left (Finset.le_sup (f := f) (Finset.mem_filter.mpr ⟨Finset.mem_univ c, h⟩))
    · have hq : c.val - b * j < b := by omega
      have e : c = blockIdx b j hN ⟨c.val - b * j, hq⟩ := Fin.ext (by show c.val = b * j + (c.val - b * j); omega)
      refine le_sup_of_le_right ?_
      rw [e]
      exact Finset.le_sup (f := fun q : Fin b => f (blockIdx b j hN q)) (Finset.mem_univ _)
  · refine sup_le (Finset.sup_mono fun c hc => ?_) (Finset.sup_le fun q _ => ?_)
    · have := (Finset.mem_filter.mp hc).2
      exact Finset.mem_filter.mpr ⟨Finset.mem_univ c, by omega⟩
    · refine Finset.le_sup (f := f) (Finset.mem_filter.mpr ⟨Finset.mem_univ _, ?_⟩)
      have := q.isLt
      show b * j + q.val < b * (j + 1)
      omega

/-- Below `b * 0` there is no index: the supremum is the least element. -/
theorem sup_filter_lt_zero {N : ℕ} (b : ℕ) (f : Fin N → α) :
    (Finset.univ.filter fun c : Fin N => c.val < b * 0).sup f = ⊥ := by
  rw [Finset.filter_false_of_mem (fun c _ => by omega), Finset.sup_empty]

/-- Below a bound that is at least `N` are all the indices: the supremum is the one over all of `Fin N`. -/
theorem sup_filter_lt_of_le {N : ℕ} (B : ℕ) (hB : N ≤ B) (f : Fin N → α) :
    (Finset.univ.filter fun c : Fin N => c.val < B).sup f = Finset.univ.sup f := by
  rw [Finset.filter_true_of_mem (fun c _ => by have := c.isLt; omega)]

end Sup

section Inf
variable [SemilatticeInf α] [OrderTop α]

/-- The infimum over the indices below `b * (j + 1)` is the meet of the infimum over the indices below `b * j`
    and the infimum of block `j`. -/
theorem inf_filter_lt_succ {N : ℕ} (b j : ℕ) (hN : b * (j + 1) ≤ N) (f : Fin N → α) :
    (Finset.univ.filter fun c : Fin N => c.val < b * (j + 1)).inf f
      = (Finset.univ.filter fun c : Fin N => c.val < b * j).inf f ⊓ Finset.univ.inf fun q : Fin b => f (blockIdx b j hN q) :=
  sup_filter_lt_succ (α := αᵒᵈ) b j hN f

/-- Below `b * 0` there is no index: the infimum is the greatest element. -/
theorem inf_filter_lt_zero {N : ℕ} (b : ℕ) (f : Fin N → α) :
    (Finset.univ.filter fun c : Fin N => c.val < b * 0).inf f = ⊤ :=
  sup_filter_lt_zero (α := αᵒᵈ) b f

/-- Below a bound that is at least `N` are all the indices: the infimum is the one over all of `Fin N`. -/
theorem inf_filter_lt_of_le {N : ℕ} (B : ℕ) (hB : N ≤ B) (f : Fin N → α) :
    (Finset.univ.filter fun c : Fin N => c.val < B).inf f = Finset.univ.inf f :=
  sup_filter_lt_of_le (α := αᵒᵈ) B hB f

end Inf

end Cert.LibBlockSup
-- ==== Proof.KGrid.lean ====
/-
  From the grid points to the last column block. The kernel walks the 8192 x 8192 matrix of distances in row blocks
  of 512 rows and column blocks of 1024 columns, eight column blocks to a row block, and keeps for every row of the
  row block a running maximum of the distances to the columns carrying the row's label and a running minimum of the
  distances to the columns carrying another label. The invariant, by induction over the grid points: after the point
  of column block j the running maximum of a row is the supremum, over the columns below 1024 (j + 1), of the
  distance where the labels agree and of bottom elsewhere, and the running minimum the infimum of the distance where
  the labels differ and of top elsewhere: the first column block starts from bottom (top) and folds its block in, each
  later one folds its block into what the point before left, and a supremum over an initial segment that grows by one
  block is the maximum of the supremum so far and the block's supremum. At the last column block the bound is 8192,
  so what is copied to the two outputs there is the hardest positive and the hardest negative of the row.
-/
import proofs.«175446_j81810537055054_1_alg».proof.Proof.FrKernelIdeal.Frame
import proofs.«175446_j81810537055054_1_alg».proof.Proof.KPay
import proofs.«175446_j81810537055054_1_alg».proof.Proof.KPieces
import proofs.«175446_j81810537055054_1_alg».proof.Proof.KBlocks
import proofs.«175446_j81810537055054_1_alg».proof.Proof.LibBlockSup
import proofs.«175446_j81810537055054_1_alg».proof.Proof.Shared
import proofs.«175446_j81810537055054_1_alg».proof.Proof.Spec
import Idealize.ShloMosaic.Lib.ValueIdx

noncomputable section

namespace Cert.KernelIdeal.KGrid

open Idealize.ShloMosaic Idealize.ShloMosaic.TcCoe Idealize.ShloMosaic.ValueIdx
open Idealize.SL.Sem
open Cert.KernelIdeal Cert.KernelIdeal.Gen Cert.KernelIdeal.Fr
open Cert.KernelIdeal.KBlocks Cert.KernelIdeal.KPieces Cert.KernelIdeal.KPay Cert.LibBlockSup

variable (m : (ℓ : Loc nD τ sig) → Buf (Elt Ideal) ℓ) (c : Dev nD)

/-- Row `r`'s distance to column `cc` where the labels agree, bottom elsewhere: what the hardest positive is the
    supremum of. -/
def posOf (r cc : Fin 8192) : EReal :=
  if Ta m c (ix1 r) = Ta m c (ix1 cc) then Cert.Spec.dist (Xa m c) (sqa m c) r cc else ⊥

/-- Row `r`'s distance to column `cc` where the labels differ, top elsewhere: what the hardest negative is the
    infimum of. -/
def negOf (r cc : Fin 8192) : EReal :=
  if Ta m c (ix1 r) = Ta m c (ix1 cc) then ⊤ else Cert.Spec.dist (Xa m c) (sqa m c) r cc

/-- The running maximum and the running minimum of a row block after position `n`. -/
abbrev runMax (n : ℕ) (hn : n < cfg0.N) : Vec Ideal S512x1 .f32 := (outsAt0 (F := Ideal) m c n hn).2.2.1
abbrev runMin (n : ℕ) (hn : n < cfg0.N) : Vec Ideal S512x1 .f32 := (outsAt0 (F := Ideal) m c n hn).2.2.2

/-- Folding column block `t % 8` into the maximum over the columns before it gives the maximum over the columns up to
    its end. -/
theorem fold_max (t : Fin cfg0.N) (p : Fin 512) (prev : EReal)
    (hprev : prev = (Finset.univ.filter fun cc : Fin 8192 => cc.val < 1024 * (t.val % 8)).sup (posOf m c (rowOf t p))) :
    max prev (k0_pay7 (F := Ideal) (b0 m c t) (b1 m c t) (b2 m c t) (b3 m c t) (b4 m c t) (b5 m c t) (ix2 p 0))
      = (Finset.univ.filter fun cc : Fin 8192 => cc.val < 1024 * (t.val % 8 + 1)).sup (posOf m c (rowOf t p)) := by
  rw [localMax_eq, hprev, sup_filter_lt_succ 1024 (t.val % 8) (by omega) (posOf m c (rowOf t p))]
  rfl

/-- Folding column block `t % 8` into the minimum over the columns before it gives the minimum over the columns up to
    its end. -/
theorem fold_min (t : Fin cfg0.N) (p : Fin 512) (prev : EReal)
    (hprev : prev = (Finset.univ.filter fun cc : Fin 8192 => cc.val < 1024 * (t.val % 8)).inf (negOf m c (rowOf t p))) :
    min prev (k0_pay8 (F := Ideal) (b0 m c t) (b1 m c t) (b2 m c t) (b3 m c t) (b4 m c t) (b5 m c t) (ix2 p 0))
      = (Finset.univ.filter fun cc : Fin 8192 => cc.val < 1024 * (t.val % 8 + 1)).inf (negOf m c (rowOf t p)) := by
  rw [localMin_eq, hprev, inf_filter_lt_succ 1024 (t.val % 8) (by omega) (negOf m c (rowOf t p))]
  rfl

/-! ## What one point does to the running maximum and minimum -/

/-- At the first column block of a row block the running maximum is reset to bottom and the block folded in. -/
theorem runMax_first (t : Fin cfg0.N) (h0 : t.val % 8 = 0) (p : Fin 512) :
    runMax m c t.val t.isLt (ix2 p 0) = max (⊥ : EReal) (k0_pay7 (F := Ideal) (b0 m c t) (b1 m c t) (b2 m c t) (b3 m c t) (b4 m c t) (b5 m c t) (ix2 p 0)) := by
  have h1 : ¬t.val % 8 = 7 := by omega
  show (outsAt0 (F := Ideal) m c t.val t.isLt).2.2.1 (ix2 p 0) = _
  rw [outsAt0_A m c t h0 h1]
  dsimp only
  refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p 0)).trans ?_
  refine (pay1_apply _ _ _).trans ?_
  rw [pay3_eq]

/-- At the first column block of a row block the running minimum is reset to top and the block folded in. -/
theorem runMin_first (t : Fin cfg0.N) (h0 : t.val % 8 = 0) (p : Fin 512) :
    runMin m c t.val t.isLt (ix2 p 0) = min (⊤ : EReal) (k0_pay8 (F := Ideal) (b0 m c t) (b1 m c t) (b2 m c t) (b3 m c t) (b4 m c t) (b5 m c t) (ix2 p 0)) := by
  have h1 : ¬t.val % 8 = 7 := by omega
  show (outsAt0 (F := Ideal) m c t.val t.isLt).2.2.2 (ix2 p 0) = _
  rw [outsAt0_A m c t h0 h1]
  dsimp only
  refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p 0)).trans ?_
  refine (pay2_apply _ _ _).trans ?_
  rw [pay4_eq]

/-- At every later column block the block is folded into what the point before left. -/
theorem runMax_next (t : Fin cfg0.N) (h0 : ¬t.val % 8 = 0) (p : Fin 512) :
    runMax m c t.val t.isLt (ix2 p 0)
      = max (runMax m c (t.val - 1) (Nat.lt_of_le_of_lt (Nat.sub_le _ _) t.isLt) (ix2 p 0)) (k0_pay7 (F := Ideal) (b0 m c t) (b1 m c t) (b2 m c t) (b3 m c t) (b4 m c t) (b5 m c t) (ix2 p 0)) := by
  show (outsAt0 (F := Ideal) m c t.val t.isLt).2.2.1 (ix2 p 0) = _
  by_cases h1 : t.val % 8 = 7
  · rw [outsAt0_C m c t h0 h1]
    dsimp only
    refine (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
    exact pay1_apply _ _ _
  · rw [outsAt0_B m c t h0 h1]
    dsimp only
    refine (congrFun (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
    exact pay1_apply _ _ _

theorem runMin_next (t : Fin cfg0.N) (h0 : ¬t.val % 8 = 0) (p : Fin 512) :
    runMin m c t.val t.isLt (ix2 p 0)
      = min (runMin m c (t.val - 1) (Nat.lt_of_le_of_lt (Nat.sub_le _ _) t.isLt) (ix2 p 0)) (k0_pay8 (F := Ideal) (b0 m c t) (b1 m c t) (b2 m c t) (b3 m c t) (b4 m c t) (b5 m c t) (ix2 p 0)) := by
  show (outsAt0 (F := Ideal) m c t.val t.isLt).2.2.2 (ix2 p 0) = _
  by_cases h1 : t.val % 8 = 7
  · rw [outsAt0_C m c t h0 h1]
    dsimp only
    refine (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
    exact pay2_apply _ _ _
  · rw [outsAt0_B m c t h0 h1]
    dsimp only
    refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
    exact pay2_apply _ _ _

/-- At the last column block the first output buffer receives the same fold as the running maximum. -/
theorem out6_fold (t : Fin cfg0.N) (h7 : t.val % 8 = 7) (p : Fin 512) :
    (outsAt0 (F := Ideal) m c t.val t.isLt).1 (ix2 p 0)
      = max (runMax m c (t.val - 1) (Nat.lt_of_le_of_lt (Nat.sub_le _ _) t.isLt) (ix2 p 0)) (k0_pay7 (F := Ideal) (b0 m c t) (b1 m c t) (b2 m c t) (b3 m c t) (b4 m c t) (b5 m c t) (ix2 p 0)) := by
  have h0 : ¬t.val % 8 = 0 := by omega
  have h1 := h7
  rw [outsAt0_C m c t h0 h1]
  dsimp only
  refine (congrFun (out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
  exact pay1_apply _ _ _

/-- At the last column block the second output buffer receives the same fold as the running minimum. -/
theorem out7_fold (t : Fin cfg0.N) (h7 : t.val % 8 = 7) (p : Fin 512) :
    (outsAt0 (F := Ideal) m c t.val t.isLt).2.1 (ix2 p 0)
      = min (runMin m c (t.val - 1) (Nat.lt_of_le_of_lt (Nat.sub_le _ _) t.isLt) (ix2 p 0)) (k0_pay8 (F := Ideal) (b0 m c t) (b1 m c t) (b2 m c t) (b3 m c t) (b4 m c t) (b5 m c t) (ix2 p 0)) := by
  have h0 : ¬t.val % 8 = 0 := by omega
  have h1 := h7
  rw [outsAt0_C m c t h0 h1]
  dsimp only
  refine (congrFun (out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
  exact pay2_apply _ _ _

/-! ## The invariant over the grid points, and the last column block -/

/-- Row `p` of the row block of point `n` is the same row of the array at the point before, within a row block. -/
theorem rowOf_pred (n : ℕ) (hn : n < cfg0.N) (h0 : ¬n % 8 = 0) (h' : n - 1 < cfg0.N) (p : Fin 512) :
    rowOf ⟨n - 1, h'⟩ p = rowOf ⟨n, hn⟩ p :=
  Fin.ext (by show 512 * ((n - 1) / 8) + p.val = 512 * (n / 8) + p.val; omega)

/-- After the point `n` the running maximum of row `p` of its row block is the largest masked distance to the columns
    of the column blocks up to this one. -/
theorem runMax_eq : ∀ (n : ℕ) (hn : n < cfg0.N) (p : Fin 512),
    runMax m c n hn (ix2 p 0)
      = (Finset.univ.filter fun cc : Fin 8192 => cc.val < 1024 * (n % 8 + 1)).sup (posOf m c (rowOf ⟨n, hn⟩ p)) := by
  intro n
  induction n using Nat.strong_induction_on with
  | _ n ih =>
    intro hn p
    by_cases h0 : n % 8 = 0
    · rw [show runMax m c n hn (ix2 p 0) = _ from runMax_first m c ⟨n, hn⟩ h0 p]
      refine fold_max m c ⟨n, hn⟩ p ⊥ ?_
      show (⊥ : EReal) = (Finset.univ.filter fun cc : Fin 8192 => cc.val < 1024 * (n % 8)).sup _
      rw [h0]
      exact (sup_filter_lt_zero 1024 _).symm
    · rw [show runMax m c n hn (ix2 p 0) = _ from runMax_next m c ⟨n, hn⟩ h0 p]
      refine fold_max m c ⟨n, hn⟩ p _ ?_
      show runMax m c (n - 1) _ (ix2 p 0) = (Finset.univ.filter fun cc : Fin 8192 => cc.val < 1024 * (n % 8)).sup _
      have hlt : n - 1 < cfg0.N := by omega
      rw [ih (n - 1) (by omega) hlt p, rowOf_pred n hn h0 hlt p, show (n - 1) % 8 + 1 = n % 8 from by omega]

/-- After the point `n` the running minimum of row `p` of its row block is the smallest masked distance to the columns
    of the column blocks up to this one. -/
theorem runMin_eq : ∀ (n : ℕ) (hn : n < cfg0.N) (p : Fin 512),
    runMin m c n hn (ix2 p 0)
      = (Finset.univ.filter fun cc : Fin 8192 => cc.val < 1024 * (n % 8 + 1)).inf (negOf m c (rowOf ⟨n, hn⟩ p)) := by
  intro n
  induction n using Nat.strong_induction_on with
  | _ n ih =>
    intro hn p
    by_cases h0 : n % 8 = 0
    · rw [show runMin m c n hn (ix2 p 0) = _ from runMin_first m c ⟨n, hn⟩ h0 p]
      refine fold_min m c ⟨n, hn⟩ p ⊤ ?_
      show (⊤ : EReal) = (Finset.univ.filter fun cc : Fin 8192 => cc.val < 1024 * (n % 8)).inf _
      rw [h0]
      exact (inf_filter_lt_zero 1024 _).symm
    · rw [show runMin m c n hn (ix2 p 0) = _ from runMin_next m c ⟨n, hn⟩ h0 p]
      refine fold_min m c ⟨n, hn⟩ p _ ?_
      show runMin m c (n - 1) _ (ix2 p 0) = (Finset.univ.filter fun cc : Fin 8192 => cc.val < 1024 * (n % 8)).inf _
      have hlt : n - 1 < cfg0.N := by omega
      rw [ih (n - 1) (by omega) hlt p, rowOf_pred n hn h0 hlt p, show (n - 1) % 8 + 1 = n % 8 from by omega]

/-- At the last column block of a row block the first output buffer holds, at row `p`, the hardest positive of that row
    of the array: the fold has reached all 8192 columns. -/
theorem out6_last (t : Fin cfg0.N) (h7 : t.val % 8 = 7) (p : Fin 512) :
    (outsAt0 (F := Ideal) m c t.val t.isLt).1 (ix2 p 0) = Cert.Spec.hardPos (Xa m c) (sqa m c) (Ta m c) (rowOf t p) := by
  have h0 : ¬t.val % 8 = 0 := by omega
  have hlt : t.val - 1 < cfg0.N := by have := t.isLt; omega
  rw [out6_fold m c t h7 p]
  refine (fold_max m c t p _ ?_).trans ?_
  · show runMax m c (t.val - 1) _ (ix2 p 0) = _
    rw [runMax_eq m c (t.val - 1) hlt p, rowOf_pred t.val t.isLt h0 hlt p, show (t.val - 1) % 8 + 1 = t.val % 8 from by omega]
  · rw [h7]
    exact sup_filter_lt_of_le (1024 * (7 + 1)) (by norm_num) _

/-- At the last column block of a row block the second output buffer holds, at row `p`, the hardest negative of that
    row of the array. -/
theorem out7_last (t : Fin cfg0.N) (h7 : t.val % 8 = 7) (p : Fin 512) :
    (outsAt0 (F := Ideal) m c t.val t.isLt).2.1 (ix2 p 0) = Cert.Spec.hardNeg (Xa m c) (sqa m c) (Ta m c) (rowOf t p) := by
  have h0 : ¬t.val % 8 = 0 := by omega
  have hlt : t.val - 1 < cfg0.N := by have := t.isLt; omega
  rw [out7_fold m c t h7 p]
  refine (fold_min m c t p _ ?_).trans ?_
  · show runMin m c (t.val - 1) _ (ix2 p 0) = _
    rw [runMin_eq m c (t.val - 1) hlt p, rowOf_pred t.val t.isLt h0 hlt p, show (t.val - 1) % 8 + 1 = t.val % 8 from by omega]
  · rw [h7]
    exact inf_filter_lt_of_le (1024 * (7 + 1)) (by norm_num) _

end Cert.KernelIdeal.KGrid

end
-- ==== Proof.KFinal.lean ====
/-
  From the grid points to the two result arrays. The two outputs are 8192 x 1 arrays cut into sixteen blocks of 512
  rows; the block of row block b is written back once, at the last of the row block's eight points (point 8 b + 7),
  when the two output buffers hold the hardest positive and the hardest negative of each of its rows. What such a
  point writes is therefore its block of ONE array of 8192 values (row r at the hardest positive, resp. negative, of
  row r); every row r lies in the block written at point 8 (r / 512) + 7; so after the run each result array is
  that array.
-/
import proofs.«175446_j81810537055054_1_alg».proof.Proof.FrKernelIdeal.Frame
import proofs.«175446_j81810537055054_1_alg».proof.Proof.KBlocks
import proofs.«175446_j81810537055054_1_alg».proof.Proof.KGrid
import proofs.«175446_j81810537055054_1_alg».proof.Proof.Spec
import proofs.«175446_j81810537055054_1_alg».proof.Proof.Shared
import Idealize.ShloMosaic.Lib.Pipeline.Value
import Idealize.ShloMosaic.Lib.ValueIdx

noncomputable section

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.KBlocks Cert.KernelIdeal.KGrid

variable (m : (ℓ : Loc nD τ sig) → Buf (Elt Ideal) ℓ) (c : Dev nD)

/-- The two result arrays, row by row: the hardest positive and the hardest negative of each of the 8192 rows. -/
abbrev hardPosArr : S8192x1.Idx → EReal := fun i => Cert.Spec.hardPos (Xa m c) (sqa m c) (Ta m c) (i 0)
abbrev hardNegArr : S8192x1.Idx → EReal := fun i => Cert.Spec.hardNeg (Xa m c) (sqa m c) (Ta m c) (i 0)

/-- Both output windows' block at a point is the point's row block: block index (point / 8, 0). -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)
theorem idx7 : ∀ t : Fin cfg0.N, win0_7.index t (0 : Fin 2) = t.val / 8 ∧ win0_7.index t (1 : Fin 2) = 0 :=
  (by decide +kernel : ∀ t : Fin grid0.N, win0_7.index t (0 : Fin 2) = t.val / 8 ∧ win0_7.index t (1 : Fin 2) = 0)

/-- After the last column block of a row block the two output buffers hold, at every entry, the hardest positive
    and the hardest negative of the entry's row. -/
theorem out6_at (t : Fin cfg0.N) (h7 : t.val % 8 = 7) (j : S512x1.Idx) :
    (outsAt0 (F := Ideal) m c t.val t.isLt).1 j = Cert.Spec.hardPos (Xa m c) (sqa m c) (Ta m c) (rowOf t (j 0)) := by
  obtain ⟨p, u, rfl⟩ : ∃ (p : Fin 512) (u : Fin 1), j = ix2 p u := ⟨j 0, j 1, eq_ix2 j⟩
  obtain rfl : u = 0 := Subsingleton.elim _ _
  exact out6_last m c t h7 p
theorem out7_at (t : Fin cfg0.N) (h7 : t.val % 8 = 7) (j : S512x1.Idx) :
    (outsAt0 (F := Ideal) m c t.val t.isLt).2.1 j = Cert.Spec.hardNeg (Xa m c) (sqa m c) (Ta m c) (rowOf t (j 0)) := by
  obtain ⟨p, u, rfl⟩ : ∃ (p : Fin 512) (u : Fin 1), j = ix2 p u := ⟨j 0, j 1, eq_ix2 j⟩
  obtain rfl : u = 0 := Subsingleton.elim _ _
  exact out7_last m c t h7 p

/-- What a point that writes back writes is its block of the array of hardest positives (of hardest negatives). -/
theorem flushed6_eq (t : Fin cfg0.N) (hf : (cfg0.win 6).flush t = true) :
    (dats (F := Ideal) m 0 c).flushed 6 t = ((cfg0.win 6).blk t).view.read (Elt Ideal) (hardPosArr m c) := by
  have h7 : t.val % 8 = 7 := (flush0_6 t).mp hf
  show (cfg0.win 6).cut (grid0.coords t) ((dats (F := Ideal) m 0 c).after 6 t) = _
  rw [after0_6]
  funext y
  rw [View.read_apply]
  show (outsAt0 (F := Ideal) m c t.val t.isLt).1 ((cfg0.win 6).xinj (grid0.coords t) y) = hardPosArr m c (((cfg0.win 6).blk t).view.emb y)
  rw [out6_at m c t h7]
  show Cert.Spec.hardPos (Xa m c) (sqa m c) (Ta m c) _ = Cert.Spec.hardPos (Xa m c) (sqa m c) (Ta m c) _
  refine congrArg _ (Fin.ext ?_)
  show 512 * (t.val / 8) + (y 0).val = win0_6.index t (0 : Fin 2) * 512 + 1 * (y 0).val
  rw [(idx6 t).1]; omega
theorem flushed7_eq (t : Fin cfg0.N) (hf : (cfg0.win 7).flush t = true) :
    (dats (F := Ideal) m 0 c).flushed 7 t = ((cfg0.win 7).blk t).view.read (Elt Ideal) (hardNegArr m c) := by
  have h7 : t.val % 8 = 7 := (flush0_7 t).mp hf
  show (cfg0.win 7).cut (grid0.coords t) ((dats (F := Ideal) m 0 c).after 7 t) = _
  rw [after0_7]
  funext y
  rw [View.read_apply]
  show (outsAt0 (F := Ideal) m c t.val t.isLt).2.1 ((cfg0.win 7).xinj (grid0.coords t) y) = hardNegArr m c (((cfg0.win 7).blk t).view.emb y)
  rw [out7_at m c t h7]
  show Cert.Spec.hardNeg (Xa m c) (sqa m c) (Ta m c) _ = Cert.Spec.hardNeg (Xa m c) (sqa m c) (Ta m c) _
  refine congrArg _ (Fin.ext ?_)
  show 512 * (t.val / 8) + (y 0).val = win0_7.index t (0 : Fin 2) * 512 + 1 * (y 0).val
  rw [(idx7 t).1]; omega

/-- A row of the array is in a point's block exactly when each coordinate is in the block's range on its axis. -/
theorem mem_blk6 (t : Fin cfg0.N) (i : S8192x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v6_0).slice (win0_6.rect t)).set ↔ _
  rw [View.set_slice_whole, Rect.mem_set_unit]
  exact Iff.rfl
theorem mem_blk7 (t : Fin cfg0.N) (i : S8192x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v6_1).slice (win0_7.rect t)).set ↔ _
  rw [View.set_slice_whole, Rect.mem_set_unit]
  exact Iff.rfl

/-- The last point of row block `r / 512`, the one that writes the block holding row `r` back. -/
def lastOf (r : ℕ) (hr : r < 8192) : Fin cfg0.N :=
  ⟨8 * (r / 512) + 7, by have hN : cfg0.N = 128 := N_0; omega⟩

/-- Every row of the array lies in the block of a point that writes back. -/
theorem cover6 (i : S8192x1.Idx) : ∃ t : Fin cfg0.N, (cfg0.win 6).flush t = true ∧ i ∈ ((cfg0.win 6).blk t).view.set := by
  have h0 : (i 0).val < 8192 := (i 0).isLt
  have h1 : (i 1).val < 1 := (i 1).isLt
  refine ⟨lastOf (i 0).val h0, (flush0_6 _).mpr (by show (8 * ((i 0).val / 512) + 7) % 8 = 7; omega), ?_⟩
  rw [mem_blk6]
  obtain ⟨e0, e1⟩ := idx6 (lastOf (i 0).val h0)
  have ev : (lastOf (i 0).val h0).val = 8 * ((i 0).val / 512) + 7 := rfl
  intro a
  match a with
  | ⟨0, _⟩ =>
    show win0_6.index (lastOf (i 0).val h0) (0 : Fin 2) * 512 ≤ (i 0).val ∧ (i 0).val < win0_6.index (lastOf (i 0).val h0) (0 : Fin 2) * 512 + 512
    rw [e0, ev]; omega
  | ⟨1, _⟩ =>
    show win0_6.index (lastOf (i 0).val h0) (1 : Fin 2) * 1 ≤ (i 1).val ∧ (i 1).val < win0_6.index (lastOf (i 0).val h0) (1 : Fin 2) * 1 + 1
    rw [e1]; omega
theorem cover7 (i : S8192x1.Idx) : ∃ t : Fin cfg0.N, (cfg0.win 7).flush t = true ∧ i ∈ ((cfg0.win 7).blk t).view.set := by
  have h0 : (i 0).val < 8192 := (i 0).isLt
  have h1 : (i 1).val < 1 := (i 1).isLt
  refine ⟨lastOf (i 0).val h0, (flush0_7 _).mpr (by show (8 * ((i 0).val / 512) + 7) % 8 = 7; omega), ?_⟩
  rw [mem_blk7]
  obtain ⟨e0, e1⟩ := idx7 (lastOf (i 0).val h0)
  have ev : (lastOf (i 0).val h0).val = 8 * ((i 0).val / 512) + 7 := rfl
  intro a
  match a with
  | ⟨0, _⟩ =>
    show win0_7.index (lastOf (i 0).val h0) (0 : Fin 2) * 512 ≤ (i 0).val ∧ (i 0).val < win0_7.index (lastOf (i 0).val h0) (0 : Fin 2) * 512 + 512
    rw [e0, ev]; omega
  | ⟨1, _⟩ =>
    show win0_7.index (lastOf (i 0).val h0) (1 : Fin 2) * 1 ≤ (i 1).val ∧ (i 1).val < win0_7.index (lastOf (i 0).val h0) (1 : Fin 2) * 1 + 1
    rw [e1]; omega

/-- After the run the two result arrays hold, at every row, the row's hardest positive and hardest negative. -/
theorem final6 : (dats (F := Ideal) m 0 c).arrAt 6 cfg0.N
    = fun i : S8192x1.Idx => Cert.Spec.hardPos (Xa m c) (sqa m c) (Ta m c) (i 0) :=
  (dats (F := Ideal) m 0 c).arrAt_eq_of_cover 6 (hardPosArr m c) (flushed6_eq m c) (cover6)

theorem final7 : (dats (F := Ideal) m 0 c).arrAt 7 cfg0.N
    = fun i : S8192x1.Idx => Cert.Spec.hardNeg (Xa m c) (sqa m c) (Ta m c) (i 0) :=
  (dats (F := Ideal) m 0 c).arrAt_eq_of_cover 7 (hardNegArr m c) (flushed7_eq m c) (cover7)

end Cert.KernelIdeal.KFinal

end
-- ==== Proof.KValue.lean ====
/-
  The kernel program's run read against the specification, over the extended reals. The tiled region leaves, in
  its two output arrays, the hardest positive and the hardest negative of every row as columns; the host lines
  after the region reshape the two columns to vectors and apply to them the tail of host operations that the
  reference applies to its own two vectors: the mean of the hinge of (hardest positive - hardest negative +
  margin) and the mean of the indicator (hardest negative > hardest positive). A column whose entry of row r
  is f r, reshaped to a vector, is the vector whose entry r is f r, so the two results are the shared loss and
  the shared precision of the specification's two vectors. Neither argument array is written.
-/
import proofs.«175446_j81810537055054_1_alg».proof.Proof.FrKernelIdeal.FrameClaim
import proofs.«175446_j81810537055054_1_alg».proof.Proof.KFinal
import proofs.«175446_j81810537055054_1_alg».proof.Proof.KBlocks
import proofs.«175446_j81810537055054_1_alg».proof.Proof.Shared
import proofs.«175446_j81810537055054_1_alg».proof.Proof.Spec
import Idealize.ShloMosaic.Lib.Pipeline.Value
import Idealize.ShloMosaic.Lib.ValueIdx

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Fr Cert.KernelIdeal.KBlocks Cert.KernelIdeal.KFinal

/-! ## The two results as terms of the region's two output arrays -/

/-- Neither result is a window's array, and neither is scoped: the region passes both by. -/
theorem v15_rest : main_v15 ∈ Pipeline.restRefs sig spec0 := Pipeline.mem_restRefs_of main_v15 rfl (by decide)
theorem v19_rest : main_v19 ∈ Pipeline.restRefs sig spec0 := Pipeline.mem_restRefs_of main_v19 rfl (by decide)

/-- The host lines after the region are, over the extended reals, the shared loss and the shared precision of
    the two column arrays reshaped to vectors. -/
theorem lossTerm_eq (a6 a7 : FVec Ideal S8192x1 .f32) :
    lossTerm (F := Ideal) a6 a7
      = Cert.Shared.lossOf (shapeCast S8192 a6 shapeCasts_S8192x1_S8192) (shapeCast S8192 a7 shapeCasts_S8192x1_S8192)
          bcast_S_S8192 reducesTo_S8192_S_d0 h_S_ := rfl

theorem precTerm_eq (a6 a7 : FVec Ideal S8192x1 .f32) :
    precTerm (F := Ideal) a6 a7
      = Cert.Shared.precOf (shapeCast S8192 a6 shapeCasts_S8192x1_S8192) (shapeCast S8192 a7 shapeCasts_S8192x1_S8192)
          reducesTo_S8192_S_d0 h_S_ := rfl

/-- A column whose entry of row r is f r, cast to a vector, is the vector whose entry r is f r: the entry (r, 0)
    of the column and the entry r of the vector sit at the same row-major position. -/
theorem cast_col {α : Type} (f : Fin 8192 → α) :
    shapeCast S8192 (fun i : S8192x1.Idx => f (i 0)) shapeCasts_S8192x1_S8192 = fun i : S8192.Idx => f (i 0) := by
  funext i
  obtain ⟨r, rfl⟩ : ∃ r : Fin 8192, i = ix1 r := ⟨i 0, eq_ix1 i⟩
  refine shapeCast_apply (fun i : S8192x1.Idx => f (i 0)) shapeCasts_S8192x1_S8192 (ix1 r) (ix2 r (0 : Fin 1)) ?_
  rw [Shape.rowMajor_val_two, Shape.rowMajor_val_one]
  show r.val * 1 + 0 = r.val
  omega

/-! ## The run -/

/-- Every weakly fair execution of the kernel's program terminates with the loss and the precision at the shared
    tail of the specification's two vectors, the arguments unchanged. The two output arrays of the region are the
    hardest positive and the hardest negative of every row, as columns; the host lines after the region reshape
    them to vectors and apply the shared tail. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v15)
        = Cert.Shared.lossOf
            (fun i : S8192.Idx => Cert.Spec.hardPos (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            (fun i : S8192.Idx => Cert.Spec.hardNeg (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            bcast_S_S8192 reducesTo_S8192_S_d0 h_S_
      ∧ r.2.mem ((c.tc : Thread nD τ).loc main_v19)
        = Cert.Shared.precOf
            (fun i : S8192.Idx => Cert.Spec.hardPos (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            (fun i : S8192.Idx => Cert.Spec.hardNeg (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.KernelIdeal.defs (F := Ideal)) _ _).mono (fun r h c => by
    have e6 := final6 m c
    have e7 := final7 m c
    refine ⟨?_, ?_, ((h c).1 0).trans (arg0_kept m c), ((h c).2 main_arg1 arg1_rest).trans (arg1_kept m c _ _)⟩
    · refine ((h c).2 main_v15 v15_rest).trans ((after_tail_v15 _).trans ?_)
      rw [exitVal_v6_0, exitVal_v6_1, e6, e7, lossTerm_eq, cast_col, cast_col]
    · refine ((h c).2 main_v19 v19_rest).trans ((after_tail_v19 _).trans ?_)
      rw [exitVal_v6_0, exitVal_v6_1, e6, e7, precTerm_eq, cast_col, cast_col])
    (run_dats m ρ)

end Cert.KernelIdeal.KValue

end
-- ==== Proof.RefValue.lean ====
/-
  The reference program read against the specification. Its distance stage at (r, c) is the clamped Euclidean
  distance of rows r and c over the shared vector of squared norms; its two masked stages are that distance
  where the labels agree (resp. differ) and bottom (resp. top) elsewhere; a maximum (minimum) taken along a row
  from bottom (top) is the supremum (infimum) over all 8192 columns, which is the specification's hardest
  positive (negative). The two results of the run are then the shared tail of host operations applied to
  those two vectors.
-/
import proofs.«175446_j81810537055054_1_alg».proof.Proof.Gen.ReferenceIdeal.Run
import proofs.«175446_j81810537055054_1_alg».proof.Proof.Gen.ReferenceIdeal.Read
import proofs.«175446_j81810537055054_1_alg».proof.Proof.Spec
import proofs.«175446_j81810537055054_1_alg».proof.Proof.Shared

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The word of minus infinity is the bottom of the extended reals, the word of plus infinity the top. -/
theorem bot_word : Ideal.ofBits .f32 0xFF800000#32 = (⊥ : EReal) := by
  simp [Ideal.ofBits, Ideal.ieee]

theorem top_word : Ideal.ofBits .f32 0x7F800000#32 = (⊤ : EReal) := by
  simp [Ideal.ofBits, Ideal.ieee]

/-- The squared-norm stage read through the two broadcasts, down the rows and along the columns. -/
theorem sqRow (X : FVec Ideal S8192x256 .f32) (r c : Fin 8192) :
    val_main_v4 (F := Ideal) X (ix2 r c) = val_main_v1 (F := Ideal) X (ix1 r) := by
  rw [val_main_v4_apply, val_main_v2_apply]
  exact congrArg _ (funext fun a => match a with | ⟨0, _⟩ => rfl)

theorem sqCol (X : FVec Ideal S8192x256 .f32) (r c : Fin 8192) :
    val_main_v5 (F := Ideal) X (ix2 r c) = val_main_v1 (F := Ideal) X (ix1 c) := by
  rw [val_main_v5_apply, val_main_v3_apply]
  exact congrArg _ (funext fun a => match a with | ⟨0, _⟩ => rfl)

/-- The product of the matrix with its transpose, at (r, c), is the inner product of rows r and c. -/
theorem gram (X : FVec Ideal S8192x256 .f32) (r c : Fin 8192) :
    val_main_v8 (F := Ideal) X (ix2 r c) = Cert.Spec.dot X r c := by
  rw [val_main_v8_apply]
  unfold Cert.Spec.dot
  refine Finset.sum_congr rfl fun k _ => ?_
  rw [val_main_v7_apply]
  congr 1
  · exact congrArg X (funext fun a => match a with | ⟨0, _⟩ => rfl | ⟨1, _⟩ => rfl)
  · exact congrArg X (funext fun a => match a with | ⟨0, _⟩ => rfl | ⟨1, _⟩ => rfl)

/-- The clamped distance stage at (r, c) is the specification's distance of rows r and c, over the squared-norm stage. -/
theorem distAt (X : FVec Ideal S8192x256 .f32) (r c : Fin 8192) :
    val_main_v13 (F := Ideal) X (ix2 r c) = Cert.Spec.dist X (val_main_v1 (F := Ideal) X) r c := by
  rw [val_main_v13_apply, Ideal.hostUnary_sqrt_def, val_main_v12_apply, Ideal.maximumf_def,
    val_main_call0_v1_apply, val_main_call0_v0_apply, val_main_cst_1_apply, Ideal.ofBits_def,
    val_main_v11_apply, Ideal.subf_def, val_main_v6_apply, Ideal.addf_def, sqRow, sqCol,
    val_main_v10_apply, Ideal.mulf_def, val_main_v9_apply, val_main_cst_0_apply, Ideal.ofBits_def, gram, max_comm]
  rfl

/-- The label comparison at (r, c) is 1 exactly when rows r and c carry the same label. -/
theorem sameAt (T : IVec S8192 32) (r c : Fin 8192) :
    val_main_v18 (F := Ideal) T (ix2 r c) = 1#1 ↔ T (ix1 r) = T (ix1 c) := by
  rw [val_main_v18_apply, IntOp.cmpi_eq, val_main_v16_apply, val_main_v14_apply, val_main_v17_apply, val_main_v15_apply]
  have e1 : idx_main_v14 (idx_main_v16 (ix2 r c)) = ix1 r := funext fun a => match a with | ⟨0, _⟩ => rfl
  have e2 : idx_main_v15 (idx_main_v17 (ix2 r c)) = ix1 c := funext fun a => match a with | ⟨0, _⟩ => rfl
  rw [e1, e2]

/-- The masked distance the maximum runs over: the distance where the labels agree, bottom elsewhere. -/
theorem posAt (X : FVec Ideal S8192x256 .f32) (T : IVec S8192 32) (r c : Fin 8192) :
    val_main_v19 (F := Ideal) X T (ix2 r c)
      = if T (ix1 r) = T (ix1 c) then Cert.Spec.dist X (val_main_v1 (F := Ideal) X) r c else ⊥ := by
  rw [val_main_v19_apply, distAt, val_main_call1_v0_apply, val_main_cst_2_apply, Ideal.ofBits_def, bot_word]
  unfold Scalar.select
  exact if_congr (sameAt T r c) rfl rfl

/-- The masked distance the minimum runs over: top where the labels agree, the distance elsewhere. -/
theorem negAt (X : FVec Ideal S8192x256 .f32) (T : IVec S8192 32) (r c : Fin 8192) :
    val_main_v21 (F := Ideal) X T (ix2 r c)
      = if T (ix1 r) = T (ix1 c) then ⊤ else Cert.Spec.dist X (val_main_v1 (F := Ideal) X) r c := by
  rw [val_main_v21_apply, distAt, val_main_call2_v0_apply, val_main_cst_4_apply, Ideal.ofBits_def, top_word]
  unfold Scalar.select
  exact if_congr (sameAt T r c) rfl rfl

theorem red_d1 : S8192x8192.Reduces [1] S8192 := by decide

/-- The index over row r with column c inserted on the reduced axis. -/
theorem lift_rc (r c : Fin 8192) : red_d1.lift (ix1 r) c = ix2 r c :=
  funext fun a => Fin.ext (match a with | ⟨0, _⟩ => rfl | ⟨1, _⟩ => rfl)

/-- The maximum-reduction stage at row r is the specification's hardest positive of row r. -/
theorem hardPosAt (X : FVec Ideal S8192x256 .f32) (T : IVec S8192 32) (r : Fin 8192) :
    val_main_v20 (F := Ideal) X T (ix1 r) = Cert.Spec.hardPos X (val_main_v1 (F := Ideal) X) T r := by
  unfold val_main_v20
  generalize hy : val_main_v19 (F := Ideal) X T = y
  refine (Host.reduce_eq_fold_single (FloatOps.maximumf (F := Ideal) (φ := .f32)) y (val_main_cst_3 (F := Ideal)) reducesTo_S8192x8192_S8192_d1 red_d1 h_S_ (ix1 r)).trans ?_
  rw [val_main_cst_3_apply, Ideal.ofBits_def, bot_word]
  unfold Cert.Spec.hardPos Finset.sup
  have key : ∀ c : Fin 8192, y (red_d1.lift (ix1 r) c)
      = (if T (ix1 r) = T (ix1 c) then Cert.Spec.dist X (val_main_v1 (F := Ideal) X) r c else ⊥) :=
    fun c => by rw [lift_rc, ← hy, posAt]
  show (Finset.univ : Finset (Fin 8192)).fold max ⊥ (fun c : Fin 8192 => y (red_d1.lift (ix1 r) c)) = _
  exact Finset.fold_congr fun c _ => key c

/-- The minimum-reduction stage at row r is the specification's hardest negative of row r. -/
theorem hardNegAt (X : FVec Ideal S8192x256 .f32) (T : IVec S8192 32) (r : Fin 8192) :
    val_main_v22 (F := Ideal) X T (ix1 r) = Cert.Spec.hardNeg X (val_main_v1 (F := Ideal) X) T r := by
  unfold val_main_v22
  generalize hy : val_main_v21 (F := Ideal) X T = y
  refine (Host.reduce_eq_fold_single (FloatOps.minimumf (F := Ideal) (φ := .f32)) y (val_main_cst_5 (F := Ideal)) reducesTo_S8192x8192_S8192_d1 red_d1 h_S_ (ix1 r)).trans ?_
  rw [val_main_cst_5_apply, Ideal.ofBits_def, top_word]
  unfold Cert.Spec.hardNeg Finset.inf
  have key : ∀ c : Fin 8192, y (red_d1.lift (ix1 r) c)
      = (if T (ix1 r) = T (ix1 c) then ⊤ else Cert.Spec.dist X (val_main_v1 (F := Ideal) X) r c) :=
    fun c => by rw [lift_rc, ← hy, negAt]
  show (Finset.univ : Finset (Fin 8192)).fold min ⊤ (fun c : Fin 8192 => y (red_d1.lift (ix1 r) c)) = _
  exact Finset.fold_congr fun c _ => key c

/-- The three shared computations as the reference spells them. -/
theorem sq_eq (X : FVec Ideal S8192x256 .f32) :
    val_main_v1 (F := Ideal) X = Cert.Shared.sqOf X reducesTo_S8192x256_S8192_d1 h_S_ := rfl

theorem loss_eq (X : FVec Ideal S8192x256 .f32) (T : IVec S8192 32) :
    val_main_v29 (F := Ideal) X T
      = Cert.Shared.lossOf (val_main_v20 (F := Ideal) X T) (val_main_v22 (F := Ideal) X T) bcast_S_S8192 reducesTo_S8192_S_d0 h_S_ := rfl

theorem prec_eq (X : FVec Ideal S8192x256 .f32) (T : IVec S8192 32) :
    val_main_v33 (F := Ideal) X T
      = Cert.Shared.precOf (val_main_v20 (F := Ideal) X T) (val_main_v22 (F := Ideal) X T) reducesTo_S8192_S_d0 h_S_ := rfl

/-- The reference's maximum-reduction stage, index by index, is the hardest positive over the shared squared norms. -/
theorem ref_hardPos (X : FVec Ideal S8192x256 .f32) (T : IVec S8192 32) (i : S8192.Idx) :
    val_main_v20 (F := Ideal) X T i
      = Cert.Spec.hardPos X (Cert.Shared.sqOf X reducesTo_S8192x256_S8192_d1 h_S_) T (i 0) := by
  obtain ⟨r, rfl⟩ : ∃ r : Fin 8192, i = ix1 r := ⟨i 0, eq_ix1 i⟩
  show val_main_v20 (F := Ideal) X T (ix1 r) = Cert.Spec.hardPos X _ T r
  rw [hardPosAt, sq_eq]

/-- The reference's minimum-reduction stage, index by index, is the hardest negative over the shared squared norms. -/
theorem ref_hardNeg (X : FVec Ideal S8192x256 .f32) (T : IVec S8192 32) (i : S8192.Idx) :
    val_main_v22 (F := Ideal) X T i
      = Cert.Spec.hardNeg X (Cert.Shared.sqOf X reducesTo_S8192x256_S8192_d1 h_S_) T (i 0) := by
  obtain ⟨r, rfl⟩ : ∃ r : Fin 8192, i = ix1 r := ⟨i 0, eq_ix1 i⟩
  show val_main_v22 (F := Ideal) X T (ix1 r) = Cert.Spec.hardNeg X _ T r
  rw [hardNegAt, sq_eq]

/-- Every weakly fair execution of the reference terminates with the loss and the precision at the shared tail of
    the specification's two vectors, the arguments unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v29)
        = Cert.Shared.lossOf
            (fun i : S8192.Idx => Cert.Spec.hardPos (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            (fun i : S8192.Idx => Cert.Spec.hardNeg (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            bcast_S_S8192 reducesTo_S8192_S_d0 h_S_
      ∧ r.2.mem ((c.tc : Thread nD τ).loc main_v33)
        = Cert.Shared.precOf
            (fun i : S8192.Idx => Cert.Spec.hardPos (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            (fun i : S8192.Idx => Cert.Spec.hardNeg (m ((c.tc : Thread nD τ).loc main_arg0))
              (Cert.Shared.sqOf (m ((c.tc : Thread nD τ).loc main_arg0)) reducesTo_S8192x256_S8192_d1 h_S_)
              (m ((c.tc : Thread nD τ).loc main_arg1)) (i 0))
            reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono (fun _ h c => by
    obtain ⟨h1, h2, h3, h4⟩ := h c
    refine ⟨?_, ?_, h3, h4⟩
    · refine h1.trans ((val_main_v29_eq _ _).trans ((loss_eq _ _).trans ?_))
      rw [funext (ref_hardPos _ _), funext (ref_hardNeg _ _)]
    · refine h2.trans ((val_main_v33_eq _ _).trans ((prec_eq _ _).trans ?_))
      rw [funext (ref_hardPos _ _), funext (ref_hardNeg _ _)])
    (Cert.ReferenceIdeal.Value.run (F := Ideal) m ρ)

end Cert.ReferenceIdeal.RefValue

end
-- ==== Proof.lean ====
/-
  The certificate of the triplet-mining kernel against its jnp reference.

  Both programs compute, from the 8192 points X and their labels T, the hardest positive and the hardest
  negative distance of every point — the largest distance to a point of the same label, the smallest to a
  point of another —, and from those two vectors, by the same host operations, the mean hinge loss and the
  mean of the indicator that the hardest negative is farther than the hardest positive. The reference takes
  the row maximum and minimum of the whole 8192 x 8192 matrix of clamped distances; the kernel tiles it in
  16 x 8 blocks of 512 x 1024 and keeps a running maximum and minimum per row block. Over the extended
  reals the two agree because a supremum over all columns is the supremum over the eight column blocks of
  the suprema over each block's columns (and dually for the infimum), the distance being the same term of
  the squared norms and inner products on both sides.

  The three frames: each program runs to the end and leaves its two arguments unchanged. The kernel's two
  (word-level and idealized) come from its launch — the matrix of points is handed to two input windows,
  which hold one half of its share each —; the reference's from its run. No operation of the kernel was
  rewritten for the idealized reading, so nothing is to be preserved.
-/
import proofs.«175446_j81810537055054_1_alg».proof.Defs
import proofs.«175446_j81810537055054_1_alg».proof.Proof.Gen.Kernel
import proofs.«175446_j81810537055054_1_alg».proof.Proof.Gen.KernelIdeal
import proofs.«175446_j81810537055054_1_alg».proof.Proof.Gen.ReferenceIdeal
import proofs.«175446_j81810537055054_1_alg».proof.Proof.Gen.Pre_finite_inputs
import proofs.«175446_j81810537055054_1_alg».proof.Proof.FrKernel.FrameClaim
import proofs.«175446_j81810537055054_1_alg».proof.Proof.FrKernelIdeal.FrameClaim
import proofs.«175446_j81810537055054_1_alg».proof.Proof.KValue
import proofs.«175446_j81810537055054_1_alg».proof.Proof.RefValue

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Fr.frame_run m ρ

/-- The idealized kernel runs and keeps its arguments. -/
theorem frame_ki : Cert.frame_KernelIdeal := fun m ρ _ => Cert.KernelIdeal.Fr.frame_run m ρ

/-- The reference runs and keeps its arguments: its run with the results dropped. -/
theorem frame_ri : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

/-- From memories agreeing on the arguments both programs end with the loss and the precision of the same two
    vectors of hardest positives and hardest negatives. -/
theorem algebraic : Cert.algebraic_KernelIdeal_ReferenceIdeal := by
  intro m ρ m' ρ' _ hagree
  refine ⟨_, _, Cert.KernelIdeal.KValue.kernel_run m ρ, ?_⟩
  refine (θ_run Cert.ReferenceIdeal.defs _ _).mono (fun _ h c => ?_) (Cert.ReferenceIdeal.RefValue.ref_run m' ρ')
  obtain ⟨h1, h2, h3, h4⟩ := h c
  refine ⟨h1.trans ?_, h2.trans ?_, h3, h4⟩
  · rw [(hagree c).1, (hagree c).2]
  · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
